-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x256x1024 : Shape := ⟨3, ![1, 256, 1024]⟩
abbrev S256x1024 : Shape := ⟨2, ![256, 1024]⟩
abbrev S1x1024 : Shape := ⟨2, ![1, 1024]⟩
abbrev S8x1x2048 : Shape := ⟨3, ![8, 1, 2048]⟩
abbrev S1x2048x1024 : Shape := ⟨3, ![1, 2048, 1024]⟩
abbrev S1x1x256 : Shape := ⟨3, ![1, 1, 256]⟩
abbrev S2048x1024 : Shape := ⟨2, ![2048, 1024]⟩
abbrev S2048x256 : Shape := ⟨2, ![2048, 256]⟩
abbrev S256 : Shape := ⟨1, ![256]⟩
abbrev S1x256 : Shape := ⟨2, ![1, 256]⟩
abbrev S8x2048x2048 : Shape := ⟨3, ![8, 2048, 2048]⟩
abbrev S1x1x2048 : Shape := ⟨3, ![1, 1, 2048]⟩
abbrev S1x256x2048 : Shape := ⟨3, ![1, 256, 2048]⟩
abbrev S1x2048 : Shape := ⟨2, ![1, 2048]⟩
abbrev S256x2048 : Shape := ⟨2, ![256, 2048]⟩

abbrev nBuf : Space → Nat
  | .hbm => 20
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S8x2048x1024, .bf16⟩
  | .hbm, ⟨14, _⟩ => ⟨S8x2048x1024, .bf16⟩
  | .hbm, ⟨15, _⟩ => ⟨S8x2048x1024, .bf16⟩
  | .hbm, ⟨16, _⟩ => ⟨S8x1x2048, .f32⟩
  | .hbm, ⟨17, _⟩ => ⟨S8x1x2048, .f32⟩
  | .hbm, ⟨18, _⟩ => ⟨S8x2048x1024, .f32⟩
  | .hbm, ⟨19, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x256x1024, .bf16⟩
  | .local _ .vmem, ⟨23, _⟩ => ⟨S1x256x1024, .bf16⟩
  | .local _ .vmem, ⟨24, _⟩ => ⟨S1x2048x1024, .bf16⟩
  | .local _ .vmem, ⟨25, _⟩ => ⟨S1x2048x1024, .bf16⟩
  | .local _ .vmem, ⟨26, _⟩ => ⟨S1x2048x1024, .bf16⟩
  | .local _ .vmem, ⟨27, _⟩ => ⟨S1x2048x1024, .bf16⟩
  | .local _ .vmem, ⟨28, _⟩ => ⟨S1x1x2048, .f32⟩
  | .local _ .vmem, ⟨29, _⟩ => ⟨S1x1x2048, .f32⟩
  | .local _ .vmem, ⟨30, _⟩ => ⟨S1x1x2048, .f32⟩
  | .local _ .vmem, ⟨31, _⟩ => ⟨S1x1x2048, .f32⟩
  | .local _ .vmem, ⟨32, _⟩ => ⟨S1x256x1024, .f32⟩
  | .local _ .vmem, ⟨33, _⟩ => ⟨S1x256x1024, .f32⟩
  | .local _ .vmem, ⟨34, _⟩ => ⟨S1x256x2048, .f32⟩
  | .local _ .vmem, ⟨35, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7_0 : Ref sig .tc := ⟨.hbm, 16, rfl⟩
abbrev main_v7_1 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  transposes_S1024x1024_S1024x1024_1_0 : S1024x1024.Transposes [1, 0] S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x256_S256 : S2048x256.Reduces [0] S256
  shapeCasts_S256_S1x256 : S256.ShapeCasts S1x256
  broadcasts_S1x256_S2048x256 : S1x256.Broadcasts S2048x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x1024_S1024x1024_S256x1024_1_0_0_1_n_n_wf : DotDims.WF S256x1024 S1024x1024 S256x1024 [1] [0] [0] [1] [] []
  dot_S2048x1024_S256x1024_S2048x256_1_1_0_0_n_n_wf : DotDims.WF S2048x1024 S256x1024 S2048x256 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S8x2048x1024.size a
  hwx0_7 : ∀ i : grid0.Coords, EltTy.bits .bf16 = 32 ∨ (Rect.block (s := S8x2048x1024) S1x256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x2048x1024.size a
  hwx0_8 : ∀ i : grid0.Coords, EltTy.bits .bf16 = 32 ∨ (Rect.block (s := S8x2048x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x2048x1024.size a
  hwx0_9 : ∀ i : grid0.Coords, EltTy.bits .bf16 = 32 ∨ (Rect.block (s := S8x2048x1024) S1x256x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x1024.size a
  hwx1_0 : ∀ i : grid1.Coords, EltTy.bits .bf16 = 32 ∨ (Rect.block (s := S8x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x2048x1024.size a
  hwx1_1 : ∀ i : grid1.Coords, EltTy.bits .bf16 = 32 ∨ (Rect.block (s := S8x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S8x1x2048.size a
  hwx1_2 : ∀ i : grid1.Coords, EltTy.bits .f32 = 32 ∨ (Rect.block (s := S8x1x2048) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S8x1x2048.size a
  hwx1_3 : ∀ i : grid1.Coords, EltTy.bits .f32 = 32 ∨ (Rect.block (s := S8x1x2048) S1x1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S8x2048x1024.size a
  hwx2_0 : ∀ i : grid2.Coords, EltTy.bits .bf16 = 32 ∨ (Rect.block (s := S8x2048x1024) S1x256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x1024.size a ≤ S8x2048x1024.size a
  hwx2_1 : ∀ i : grid2.Coords, EltTy.bits .bf16 = 32 ∨ (Rect.block (s := S8x2048x1024) S1x2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x1024.size a ≤ S8x2048x1024.size a
  hwx2_2 : ∀ i : grid2.Coords, EltTy.bits .bf16 = 32 ∨ (Rect.block (s := S8x2048x1024) S1x2048x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x2048.size a ≤ S8x1x2048.size a
  hwx2_3 : ∀ i : grid2.Coords, EltTy.bits .f32 = 32 ∨ (Rect.block (s := S8x1x2048) S1x1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x2048.size a ≤ S8x1x2048.size a
  hwx2_4 : ∀ i : grid2.Coords, EltTy.bits .f32 = 32 ∨ (Rect.block (s := S8x1x2048) S1x1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256x1024.size a ≤ S8x2048x1024.size a
  hwx2_5 : ∀ i : grid2.Coords, EltTy.bits .f32 = 32 ∨ (Rect.block (s := S8x2048x1024) S1x256x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256x2048.size a ≤ S8x2048x2048.size a
  hwx2_6 : ∀ i : grid2.Coords, EltTy.bits .f32 = 32 ∨ (Rect.block (s := S8x2048x2048) S1x256x2048.size (cc2_transform_6 i) (hinb2_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S1x1x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S1x1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6_0) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S1x2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_2) S1x2048x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7_0) S1x1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7_1) S1x1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8_0) S1x256x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v8_1) S1x256x2048.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  Attention whose softmax normalises over the QUERY axis, written as functions of whole arrays, index by index, on the
  extended reals.

  From an input x : [8, 2048, 1024] and three weight matrices with their biases, three linear projections
  q, k, v = x · Wᵀ + b are taken. The score of query s against key t in batch n is the inner product of row s of q with
  row t of k, scaled by 1/32. For a FIXED key t the scores of all 2048 queries are normalised: their maximum is
  subtracted, the exponentials are summed over the queries, and each exponential is divided by that sum. The output row
  of query s is the combination of the rows of v with those weights.

  Every function below is stated over literal shapes and over coordinates built by `ix1`, `ix2`, `ix3`; the lemmas
  named `…_ix3` restate each at an index given by its coordinates. The scale and the starting value of the maximum are
  kept as the float words that denote them (1/32 and -∞): the same word stands on both sides of every comparison, so
  neither is evaluated here.
-/
import Idealize.ShloMosaic.PureOps.Ideal
import Idealize.ShloMosaic.PureOps.Ideal.Laws
import Idealize.ShloMosaic.Lib.ValueIdx

noncomputable section

namespace Cert.QueryAxisAttention

open Idealize.ShloMosaic Idealize.ShloMosaic.ValueIdx

/-- [batch, sequence, feature]. -/
abbrev Sbsd : Shape := ⟨3, ![8, 2048, 1024]⟩
/-- A square weight matrix. -/
abbrev Sdd : Shape := ⟨2, ![1024, 1024]⟩
/-- A bias. -/
abbrev Sd : Shape := ⟨1, ![1024]⟩
/-- [batch, query, key]. -/
abbrev Sbqk : Shape := ⟨3, ![8, 2048, 2048]⟩
/-- A per-key statistic, the query axis kept as a unit axis: [batch, 1, key]. -/
abbrev Sb1k : Shape := ⟨3, ![8, 1, 2048]⟩

/-- The float word of 1/32, the scale 1/√1024 of the scores. -/
abbrev scaleWord : BitVec 32 := 0x3D000000#32
/-- The float word of -∞, from which a maximum is folded. -/
abbrev negInfWord : BitVec 32 := 0xFF800000#32

/-- A matrix read with its two coordinates exchanged. -/
def transposed (w : Sdd.Idx → EReal) : Sdd.Idx → EReal := fun i => w (ix2 (i 1) (i 0))

theorem transposed_ix2 (w : Sdd.Idx → EReal) (d e : Fin 1024) : transposed w (ix2 d e) = w (ix2 e d) := rfl

/-- The linear projection x · M + b for a matrix M given feature-in by feature-out (the weight already transposed):
    entry (n, s, e) is the sum over d of x(n, s, d) · M(d, e), plus b(e). -/
def linT (x : Sbsd.Idx → EReal) (wT : Sdd.Idx → EReal) (b : Sd.Idx → EReal) : Sbsd.Idx → EReal :=
  fun i => (∑ d : Fin 1024, x (ix3 (i 0) (i 1) d) * wT (ix2 d (i 2))) + b (ix1 (i 2))

theorem linT_ix3 (x : Sbsd.Idx → EReal) (wT : Sdd.Idx → EReal) (b : Sd.Idx → EReal) (n : Fin 8) (s : Fin 2048) (e : Fin 1024) :
    linT x wT b (ix3 n s e) = (∑ d : Fin 1024, x (ix3 n s d) * wT (ix2 d e)) + b (ix1 e) := rfl

/-- The scaled scores: entry (n, s, t) is the inner product of row s of q with row t of k, times 1/32. -/
def scores (q k : Sbsd.Idx → EReal) : Sbqk.Idx → EReal :=
  fun i => (∑ d : Fin 1024, q (ix3 (i 0) (i 1) d) * k (ix3 (i 0) (i 2) d)) * Ideal.ofBits .f32 scaleWord

theorem scores_ix3 (q k : Sbsd.Idx → EReal) (n : Fin 8) (s t : Fin 2048) :
    scores q k (ix3 n s t) = (∑ d : Fin 1024, q (ix3 n s d) * k (ix3 n t d)) * Ideal.ofBits .f32 scaleWord := rfl

/-- For each key, the maximum of its column of scores over all queries, folded from -∞. -/
def colMax (sc : Sbqk.Idx → EReal) : Sb1k.Idx → EReal :=
  fun j => (Finset.univ : Finset (Fin 2048)).fold max (Ideal.ofBits .f32 negInfWord) fun s => sc (ix3 (j 0) s (j 2))

theorem colMax_ix3 (sc : Sbqk.Idx → EReal) (n : Fin 8) (u : Fin 1) (t : Fin 2048) :
    colMax sc (ix3 n u t) = (Finset.univ : Finset (Fin 2048)).fold max (Ideal.ofBits .f32 negInfWord) fun s => sc (ix3 n s t) := rfl

/-- For each key, the sum over all queries of the exponential of the score less a per-key shift `mx`. -/
def colSum (sc : Sbqk.Idx → EReal) (mx : Sb1k.Idx → EReal) : Sb1k.Idx → EReal :=
  fun j => ∑ s : Fin 2048, Ideal.exp (sc (ix3 (j 0) s (j 2)) - mx (ix3 (j 0) (0 : Fin 1) (j 2)))

theorem colSum_ix3 (sc : Sbqk.Idx → EReal) (mx : Sb1k.Idx → EReal) (n : Fin 8) (u : Fin 1) (t : Fin 2048) :
    colSum sc mx (ix3 n u t) = ∑ s : Fin 2048, Ideal.exp (sc (ix3 n s t) - mx (ix3 n (0 : Fin 1) t)) := rfl

/-- The attention weights from the scores, a per-key shift and a per-key normaliser: entry (n, s, t) is
    exp(sc(n, s, t) - mx(n, t)) / z(n, t). -/
def weights (sc : Sbqk.Idx → EReal) (mx z : Sb1k.Idx → EReal) : Sbqk.Idx → EReal :=
  fun i => Ideal.div (Ideal.exp (sc i - mx (ix3 (i 0) (0 : Fin 1) (i 2)))) (z (ix3 (i 0) (0 : Fin 1) (i 2)))

theorem weights_ix3 (sc : Sbqk.Idx → EReal) (mx z : Sb1k.Idx → EReal) (n : Fin 8) (s t : Fin 2048) :
    weights sc mx z (ix3 n s t)
      = Ideal.div (Ideal.exp (sc (ix3 n s t) - mx (ix3 n (0 : Fin 1) t))) (z (ix3 n (0 : Fin 1) t)) := rfl

/-- The weighted combination of the value rows: entry (n, s, e) is the sum over keys t of w(n, s, t) · v(n, t, e). -/
def combine (w : Sbqk.Idx → EReal) (v : Sbsd.Idx → EReal) : Sbsd.Idx → EReal :=
  fun i => ∑ t : Fin 2048, w (ix3 (i 0) (i 1) t) * v (ix3 (i 0) t (i 2))

theorem combine_ix3 (w : Sbqk.Idx → EReal) (v : Sbsd.Idx → EReal) (n : Fin 8) (s : Fin 2048) (e : Fin 1024) :
    combine w v (ix3 n s e) = ∑ t : Fin 2048, w (ix3 n s t) * v (ix3 n t e) := rfl

/-- The weights as a function of the projected queries and keys alone: the shift is the column maximum, the normaliser
    the column sum taken with that shift. -/
def weightsOf (q k : Sbsd.Idx → EReal) : Sbqk.Idx → EReal :=
  weights (scores q k) (colMax (scores q k)) (colSum (scores q k) (colMax (scores q k)))

/-- The two results as functions of the seven arguments. -/
def resultWeights (x : Sbsd.Idx → EReal) (wq : Sdd.Idx → EReal) (bq : Sd.Idx → EReal) (wk : Sdd.Idx → EReal) (bk : Sd.Idx → EReal) :
    Sbqk.Idx → EReal :=
  weightsOf (linT x (transposed wq) bq) (linT x (transposed wk) bk)

def resultOutput (x : Sbsd.Idx → EReal) (wq : Sdd.Idx → EReal) (bq : Sd.Idx → EReal) (wk : Sdd.Idx → EReal) (bk : Sd.Idx → EReal)
    (wv : Sdd.Idx → EReal) (bv : Sd.Idx → EReal) : Sbsd.Idx → EReal :=
  combine (resultWeights x wq bq wk bk) (linT x (transposed wv) bv)

end Cert.QueryAxisAttention

end
-- ==== Proof.Region0.lean ====
/-
  The projection region: after its 64 grid points the three result arrays hold x · M + b for the three
  (already transposed) weight matrices, as whole-array functions of the arrays the region is entered with.
-/
import proofs.«111910_j20710332301555_1_alg».proof.Proof.Gen.KernelIdeal.Frame
import proofs.«111910_j20710332301555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.QueryAxisAttention.Projection

open Cert.KernelIdeal Cert.KernelIdeal.Gen Cert.QueryAxisAttention

-- The buffer contents the region is entered with: every statement below holds for any such contents.
variable (V : (c : Dev nD) → (b : Ref sig .tc) → Buf (Elt Ideal) ((c : Thread nD τ).loc b))

/-! ## Zero offsets, however spelt -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-! ## The matrix product's operand indices

The product contracts the second axis of its left operand [256, 1024] with the first axis of its right operand
[1024, 1024]: at result index (p, e) and contraction position k the left operand is read at (p, k) and the right at
(k, e). -/

theorem dotL_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dotL_contr (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem dotR_contr (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem dotR_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into the zero accumulator, at (p, e): the sum over d of left(p, d) · right(d, e). -/
theorem product_apply (l : FVec Ideal S256x1024 .bf16) (r : FVec Ideal S1024x1024 .bf16) (p : Fin 256) (e : Fin 1024) :
    matmul dot_S256x1024_S1024x1024_S256x1024_1_0_0_1_n_n none l r (constant (F := Ideal) S256x1024 .f32 0x00000000#32) (ix2 p e)
      = ∑ d : Fin 1024, l (ix2 p d) * r (ix2 d e) := by
  refine (Ideal.matmul_constant_zero_apply dot_S256x1024_S1024x1024_S256x1024_1_0_0_1_n_n none l r (ix2 p e)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p e) ((ValueIdx.contrEquiv1 dot_S256x1024_S1024x1024_S256x1024_1_0_0_1_n_n 1024 rfl rfl).symm k) = ix2 p k := funext fun a => Fin.ext (by
    match a with
    | ⟨0, _⟩ => exact dotL_row _ _
    | ⟨1, _⟩ => exact (dotL_contr _ _).trans hk)
  have er : dot_S256x1024_S1024x1024_S256x1024_1_0_0_1_n_n.rhsIdx (ix2 p e) ((ValueIdx.contrEquiv1 dot_S256x1024_S1024x1024_S256x1024_1_0_0_1_n_n 1024 rfl rfl).symm k) = ix2 k e := funext fun a => Fin.ext (by
    match a with
    | ⟨0, _⟩ => exact (dotR_contr _ _).trans hk
    | ⟨1, _⟩ => exact dotR_col _ _)
  rw [el, er]

/-! ## One projection's block

What the body computes for one of the three projections, from the block of x it loaded, a weight matrix and a bias:
the block cast to [256, 1024], multiplied into the matrix, the bias added along the rows. The changes of float format are
the identity on the extended reals. -/

/-- The block of one projection before it is cast back to [1, 256, 1024]. -/
def rowsTimes (x : FVec Ideal S1x256x1024 .f32) (w : FVec Ideal S1024x1024 .bf16) (b : FVec Ideal S1024 .f32) : FVec Ideal S256x1024 .bf16 :=
  truncf .bf16 (addf (matmul dot_S256x1024_S1024x1024_S256x1024_1_0_0_1_n_n none (k0_pay2 x) (shapeCast S1024x1024 w shapeCasts_S1024x1024_S1024x1024) (constant (F := Ideal) S256x1024 .f32 0x00000000#32))
    (broadcastTo S256x1024 (shapeCast S1x1024 b shapeCasts_S1024_S1x1024) broadcasts_S1x1024_S256x1024)) bitsLt_bf16_f32

/-- Entry (p, e) of it: the sum over d of x(0, p, d) · w(d, e), plus b(e). -/
theorem rowsTimes_apply (x : FVec Ideal S1x256x1024 .f32) (w : FVec Ideal S1024x1024 .bf16) (b : FVec Ideal S1024 .f32) (p : Fin 256) (e : Fin 1024) :
    rowsTimes x w b (ix2 p e) = (∑ d : Fin 1024, x (ix3 (0 : Fin 1) p d) * w (ix2 d e)) + b (ix1 e) := by
  unfold rowsTimes
  rw [truncf_apply, addf_apply, shapeCast_self]
  refine congrArg₂ (· + ·) ?_ ?_
  · refine (product_apply (k0_pay2 x) w p e).trans ?_
    refine Finset.sum_congr rfl fun d _ => ?_
    refine congrArg (· * w (ix2 d e)) ?_
    unfold k0_pay2
    rw [truncf_apply]
    exact shapeCast_1ab_ab_apply x shapeCasts_S1x256x1024_S256x1024 p d
  · refine (broadcastTo_1b_ab_apply _ broadcasts_S1x1024_S256x1024 p e).trans ?_
    exact shapeCast_a_1a_apply b shapeCasts_S1024_S1x1024 (0 : Fin 1) e

/-- The three stored payloads are that block cast to [1, 256, 1024]. -/
theorem payload_q (x : FVec Ideal S1x256x1024 .f32) (w : FVec Ideal S1024x1024 .bf16) (b : FVec Ideal S1024 .f32) :
    k0_pay3 x w b = shapeCast S1x256x1024 (rowsTimes x w b) shapeCasts_S256x1024_S1x256x1024 := rfl
theorem payload_k (x : FVec Ideal S1x256x1024 .f32) (w : FVec Ideal S1024x1024 .bf16) (b : FVec Ideal S1024 .f32) :
    k0_pay4 x w b = shapeCast S1x256x1024 (rowsTimes x w b) shapeCasts_S256x1024_S1x256x1024 := rfl
theorem payload_v (x : FVec Ideal S1x256x1024 .f32) (w : FVec Ideal S1024x1024 .bf16) (b : FVec Ideal S1024 .f32) :
    k0_pay1 (k0_pay5 x w b) = shapeCast S1x256x1024 (rowsTimes x w b) shapeCasts_S256x1024_S1x256x1024 := rfl

/-- Entry (u, p, e) of a stored payload. -/
theorem stored_apply (x : FVec Ideal S1x256x1024 .f32) (w : FVec Ideal S1024x1024 .bf16) (b : FVec Ideal S1024 .f32) (u : Fin 1) (p : Fin 256) (e : Fin 1024) :
    shapeCast S1x256x1024 (rowsTimes x w b) shapeCasts_S256x1024_S1x256x1024 (ix3 u p e)
      = (∑ d : Fin 1024, x (ix3 (0 : Fin 1) p d) * w (ix2 d e)) + b (ix1 e) :=
  (shapeCast_ab_1ab_apply (rowsTimes x w b) shapeCasts_S256x1024_S1x256x1024 u p e).trans (rowsTimes_apply x w b p e)

/-! ## A stored payload and the specification, at an index given with its coordinates -/

/-- A stored payload at a block index whose row and column are named. -/
theorem stored_at (x : FVec Ideal S1x256x1024 .f32) (w : FVec Ideal S1024x1024 .bf16) (b : FVec Ideal S1024 .f32)
    (y : S1x256x1024.Idx) (p : Fin 256) (e : Fin 1024) (hp : (y 1).val = p.val) (he : (y 2).val = e.val) :
    shapeCast S1x256x1024 (rowsTimes x w b) shapeCasts_S256x1024_S1x256x1024 y
      = (∑ d : Fin 1024, x (ix3 (0 : Fin 1) p d) * w (ix2 d e)) + b (ix1 e) := by
  have hu : (y 0).val < 1 := (y 0).isLt
  have hy : y = ix3 (⟨0, Nat.one_pos⟩ : Fin 1) p e := funext fun a => Fin.ext (by
    match a with
    | ⟨0, _⟩ => show (y 0).val = 0; omega
    | ⟨1, _⟩ => exact hp
    | ⟨2, _⟩ => exact he)
  rw [hy]
  exact stored_apply x w b _ p e

theorem payload_q_at (x : FVec Ideal S1x256x1024 .f32) (w : FVec Ideal S1024x1024 .bf16) (b : FVec Ideal S1024 .f32)
    (y : S1x256x1024.Idx) (p : Fin 256) (e : Fin 1024) (hp : (y 1).val = p.val) (he : (y 2).val = e.val) :
    k0_pay3 (F := Ideal) x w b y = (∑ d : Fin 1024, x (ix3 (0 : Fin 1) p d) * w (ix2 d e)) + b (ix1 e) :=
  (congrFun (payload_q x w b) y).trans (stored_at x w b y p e hp he)
theorem payload_k_at (x : FVec Ideal S1x256x1024 .f32) (w : FVec Ideal S1024x1024 .bf16) (b : FVec Ideal S1024 .f32)
    (y : S1x256x1024.Idx) (p : Fin 256) (e : Fin 1024) (hp : (y 1).val = p.val) (he : (y 2).val = e.val) :
    k0_pay4 (F := Ideal) x w b y = (∑ d : Fin 1024, x (ix3 (0 : Fin 1) p d) * w (ix2 d e)) + b (ix1 e) :=
  (congrFun (payload_k x w b) y).trans (stored_at x w b y p e hp he)
theorem payload_v_at (x : FVec Ideal S1x256x1024 .f32) (w : FVec Ideal S1024x1024 .bf16) (b : FVec Ideal S1024 .f32)
    (y : S1x256x1024.Idx) (p : Fin 256) (e : Fin 1024) (hp : (y 1).val = p.val) (he : (y 2).val = e.val) :
    k0_pay1 (F := Ideal) (k0_pay5 x w b) y = (∑ d : Fin 1024, x (ix3 (0 : Fin 1) p d) * w (ix2 d e)) + b (ix1 e) :=
  (congrFun (payload_v x w b) y).trans (stored_at x w b y p e hp he)

/-- The specification's projection at an index whose three coordinates are named. -/
theorem linT_at (A : Sbsd.Idx → EReal) (M : Sdd.Idx → EReal) (B : Sd.Idx → EReal) (k : Sbsd.Idx)
    (n : Fin 8) (s : Fin 2048) (e : Fin 1024) (h0 : (k 0).val = n.val) (h1 : (k 1).val = s.val) (h2 : (k 2).val = e.val) :
    linT A M B k = (∑ d : Fin 1024, A (ix3 n s d) * M (ix2 d e)) + B (ix1 e) := by
  have hk : k = ix3 n s e := funext fun a => Fin.ext (by
    match a with
    | ⟨0, _⟩ => exact h0
    | ⟨1, _⟩ => exact h1
    | ⟨2, _⟩ => exact h2)
  rw [hk]
  rfl

/-! ## The windows' blocks as parts of the arrays

At the grid point with coordinates (n, i) the window of x and the three output windows sit at block index (n, i, 0), in
blocks of [1, 256, 1024]: rows 256 i … 256 i + 255 of batch n. The weight and bias windows are their whole arrays at
every point. All of it is decided once over the 64 points. -/

theorem index_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_8.index t (0 : Fin 3) = win0_7.index t (0 : Fin 3) ∧ win0_8.index t (1 : Fin 3) = win0_7.index t (1 : Fin 3)
    ∧ win0_8.index t (2 : Fin 3) = 0
    ∧ win0_9.index t (0 : Fin 3) = win0_7.index t (0 : Fin 3) ∧ win0_9.index t (1 : Fin 3) = win0_7.index t (1 : Fin 3)
    ∧ win0_9.index t (2 : Fin 3) = 0
    ∧ win0_7.index t (0 : Fin 3) < 8 ∧ win0_7.index t (1 : Fin 3) < 8 ∧ win0_7.index t (2 : Fin 3) = 0 :=
  (by decide +kernel : ∀ t : Fin grid0.N, _)

theorem whole_facts : ∀ t : Fin cfg0.N,
    win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every pair (batch, row block) is some point's block index, for each output window. -/
theorem index_onto : ∀ (n : Fin 8) (q : Fin 8), ∃ t : Fin cfg0.N, win0_7.index t = ![n.val, q.val, 0] :=
  (by decide +kernel : ∀ (n : Fin 8) (q : Fin 8), ∃ t : Fin grid0.N, win0_7.index t = ![n.val, q.val, 0])

/-- The block of x at a point: row p of the block is row 256 i + p of batch n. -/
theorem x_block (c : Dev nD) (t : Fin cfg0.N) (u : Fin 1) (p : Fin 256) (d : Fin 1024) (n : Fin 8) (s : Fin 2048)
    (hn : n.val = win0_0.index t (0 : Fin 3)) (hs : s.val = win0_0.index t (1 : Fin 3) * 256 + p.val)
    (h2 : win0_0.index t (2 : Fin 3) = 0) :
    (iblk0 V c 0 t : Vec Ideal S1x256x1024 .f32) (ix3 u p d) = (V c main_arg0 : S8x2048x1024.Idx → EReal) (ix3 n s d) := by
  have hu : u.val < 1 := u.isLt
  unfold iblk0
  rw [View.read_apply]
  show V c main_arg0 _ = V c main_arg0 _
  congr 1
  funext a
  apply Fin.ext
  match a with
  | ⟨0, _⟩ => show win0_0.index t (0 : Fin 3) * 1 + 1 * u.val = n.val; omega
  | ⟨1, _⟩ => show win0_0.index t (1 : Fin 3) * 256 + 1 * p.val = s.val; omega
  | ⟨2, _⟩ => show win0_0.index t (2 : Fin 3) * 1024 + 1 * d.val = d.val; omega

/-- The weight windows' blocks are the weight matrices, the bias windows' blocks the biases. -/
theorem wq_block (c : Dev nD) (t : Fin cfg0.N) (d e : Fin 1024)
    (h0 : win0_1.index t (0 : Fin 2) = 0) (h1 : win0_1.index t (1 : Fin 2) = 0) :
    (iblk0 V c 1 t : Vec Ideal S1024x1024 .bf16) (ix2 d e) = (V c main_v1 : S1024x1024.Idx → EReal) (ix2 d e) := by
  unfold iblk0
  rw [View.read_apply]
  show V c main_v1 _ = V c main_v1 _
  congr 1
  funext a
  apply Fin.ext
  match a with
  | ⟨0, _⟩ => show win0_1.index t (0 : Fin 2) * 1024 + 1 * d.val = d.val; omega
  | ⟨1, _⟩ => show win0_1.index t (1 : Fin 2) * 1024 + 1 * e.val = e.val; omega

theorem bq_block (c : Dev nD) (t : Fin cfg0.N) (e : Fin 1024) (h0 : win0_2.index t (0 : Fin 1) = 0) :
    (iblk0 V c 2 t : Vec Ideal S1024 .f32) (ix1 e) = (V c main_arg2 : S1024.Idx → EReal) (ix1 e) := by
  unfold iblk0
  rw [View.read_apply]
  show V c main_arg2 _ = V c main_arg2 _
  congr 1
  funext a
  apply Fin.ext
  match a with
  | ⟨0, _⟩ => show win0_2.index t (0 : Fin 1) * 1024 + 1 * e.val = e.val; omega

theorem wk_block (c : Dev nD) (t : Fin cfg0.N) (d e : Fin 1024)
    (h0 : win0_3.index t (0 : Fin 2) = 0) (h1 : win0_3.index t (1 : Fin 2) = 0) :
    (iblk0 V c 3 t : Vec Ideal S1024x1024 .bf16) (ix2 d e) = (V c main_v3 : S1024x1024.Idx → EReal) (ix2 d e) := by
  unfold iblk0
  rw [View.read_apply]
  show V c main_v3 _ = V c main_v3 _
  congr 1
  funext a
  apply Fin.ext
  match a with
  | ⟨0, _⟩ => show win0_3.index t (0 : Fin 2) * 1024 + 1 * d.val = d.val; omega
  | ⟨1, _⟩ => show win0_3.index t (1 : Fin 2) * 1024 + 1 * e.val = e.val; omega

theorem bk_block (c : Dev nD) (t : Fin cfg0.N) (e : Fin 1024) (h0 : win0_4.index t (0 : Fin 1) = 0) :
    (iblk0 V c 4 t : Vec Ideal S1024 .f32) (ix1 e) = (V c main_arg4 : S1024.Idx → EReal) (ix1 e) := by
  unfold iblk0
  rw [View.read_apply]
  show V c main_arg4 _ = V c main_arg4 _
  congr 1
  funext a
  apply Fin.ext
  match a with
  | ⟨0, _⟩ => show win0_4.index t (0 : Fin 1) * 1024 + 1 * e.val = e.val; omega

theorem wv_block (c : Dev nD) (t : Fin cfg0.N) (d e : Fin 1024)
    (h0 : win0_5.index t (0 : Fin 2) = 0) (h1 : win0_5.index t (1 : Fin 2) = 0) :
    (iblk0 V c 5 t : Vec Ideal S1024x1024 .bf16) (ix2 d e) = (V c main_v5 : S1024x1024.Idx → EReal) (ix2 d e) := by
  unfold iblk0
  rw [View.read_apply]
  show V c main_v5 _ = V c main_v5 _
  congr 1
  funext a
  apply Fin.ext
  match a with
  | ⟨0, _⟩ => show win0_5.index t (0 : Fin 2) * 1024 + 1 * d.val = d.val; omega
  | ⟨1, _⟩ => show win0_5.index t (1 : Fin 2) * 1024 + 1 * e.val = e.val; omega

theorem bv_block (c : Dev nD) (t : Fin cfg0.N) (e : Fin 1024) (h0 : win0_6.index t (0 : Fin 1) = 0) :
    (iblk0 V c 6 t : Vec Ideal S1024 .f32) (ix1 e) = (V c main_arg6 : S1024.Idx → EReal) (ix1 e) := by
  unfold iblk0
  rw [View.read_apply]
  show V c main_arg6 _ = V c main_arg6 _
  congr 1
  funext a
  apply Fin.ext
  match a with
  | ⟨0, _⟩ => show win0_6.index t (0 : Fin 1) * 1024 + 1 * e.val = e.val; omega

/-! ## The query projection -/

/-- What a point writes back to the query projection's array is its block of the projection of the arrays the region is entered
    with: entry (p, e) of the payload is the sum over d of x(n, 256 i + p, d) · M(d, e) plus b(e), which is the
    projection at (n, 256 i + p, e). -/
theorem flushed_q (c : Dev nD) (t : Fin cfg0.N) :
    (dat0 (F := Ideal) V c).flushed 7 t
      = ((cfg0.win 7).blk t).view.read (Elt Ideal) (linT (V c main_arg0) (V c main_v1) (V c main_arg2)) := by
  show (cfg0.win 7).cut (grid0.coords t) ((dat0 V c).after 7 t) = _
  rw [after0_7]
  unfold out0_7
  rw [View.canon_unit_zero zeros3]
  simp only [View.ld_unit_zero (S := S1x256x1024) zeros3, View.ld_unit_zero (S := S1024x1024) zeros2, View.ld_unit_zero (S := S1024) zeros1]
  funext j
  have hj0 : (j 0).val < 1 := (j 0).isLt
  have hj1 : (j 1).val < 256 := (j 1).isLt
  have hj2 : (j 2).val < 1024 := (j 2).isLt
  obtain ⟨a0, a1, a2, b0, b1, b2, c0, c1, c2, r0, r1, r2⟩ := index_facts t
  obtain ⟨m10, m11, m2, m30, m31, m4, m50, m51, m6⟩ := whole_facts t
  show k0_pay3 (iblk0 V c 0 t) (iblk0 V c 1 t) (iblk0 V c 2 t) (win0_7.xinj (grid0.coords t) j) = linT (V c main_arg0) (V c main_v1) (V c main_arg2) (((cfg0.win 7).blk t).view.emb j)
  refine (payload_q_at (iblk0 V c 0 t) (iblk0 V c 1 t) (iblk0 V c 2 t) (win0_7.xinj (grid0.coords t) j) ⟨(j 1).val, hj1⟩ ⟨(j 2).val, hj2⟩ rfl rfl).trans ?_
  refine Eq.trans ?_ (linT_at (V c main_arg0) (V c main_v1) (V c main_arg2) (((cfg0.win 7).blk t).view.emb j)
    ⟨win0_7.index t (0 : Fin 3), r0⟩ ⟨win0_7.index t (1 : Fin 3) * 256 + (j 1).val, by omega⟩ ⟨(j 2).val, hj2⟩ ?_ ?_ ?_).symm
  · refine congrArg₂ (· + ·) (Finset.sum_congr rfl fun d _ => congrArg₂ (· * ·) ?_ ?_) ?_
    · exact x_block V c t (0 : Fin 1) ⟨(j 1).val, hj1⟩ d ⟨win0_7.index t (0 : Fin 3), r0⟩ ⟨win0_7.index t (1 : Fin 3) * 256 + (j 1).val, by omega⟩
        (by show win0_7.index t (0 : Fin 3) = win0_0.index t (0 : Fin 3); omega)
        (by show win0_7.index t (1 : Fin 3) * 256 + (j 1).val = win0_0.index t (1 : Fin 3) * 256 + (j 1).val; omega) a2
    · exact wq_block V c t d ⟨(j 2).val, hj2⟩ m10 m11
    · exact bq_block V c t ⟨(j 2).val, hj2⟩ m2
  · show win0_7.index t (0 : Fin 3) * 1 + 1 * (j 0).val = win0_7.index t (0 : Fin 3); omega
  · show win0_7.index t (1 : Fin 3) * 256 + 1 * (j 1).val = win0_7.index t (1 : Fin 3) * 256 + (j 1).val; omega
  · show win0_7.index t (2 : Fin 3) * 1024 + 1 * (j 2).val = (j 2).val; omega

/-- An index of the array is in a point's block iff each coordinate is in the block's range on its axis. -/
theorem mem_blk_q (t : Fin cfg0.N) (i : S8x2048x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v6_0).slice (win0_7.rect t)).set ↔ _
  rw [View.set_slice_whole, Rect.mem_set_unit]
  exact Iff.rfl

/-- Every index (n, s, e) of the array is in the block of the point whose block index is (n, s / 256, 0), and every point
    writes back. -/
theorem cover_q (i : S8x2048x1024.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 1024 := (i 2).isLt
  obtain ⟨t, ht⟩ := index_onto ⟨(i 0).val, hi0⟩ ⟨(i 1).val / 256, by omega⟩
  have q0 : win0_7.index t (0 : Fin 3) = (i 0).val := congrFun ht 0
  have q1 : win0_7.index t (1 : Fin 3) = (i 1).val / 256 := congrFun ht 1
  obtain ⟨a0, a1, a2, b0, b1, b2, c0, c1, c2, r0, r1, r2⟩ := index_facts t
  refine ⟨t, flush0_7 t, ?_⟩
  rw [mem_blk_q]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- The query projection's array after the region. -/
theorem arr_q (c : Dev nD) :
    (dat0 (F := Ideal) V c).arrAt 7 cfg0.N = linT (V c main_arg0) (V c main_v1) (V c main_arg2) :=
  (dat0 (F := Ideal) V c).arrAt_eq_of_cover 7 (linT (V c main_arg0) (V c main_v1) (V c main_arg2))
    (fun t _ => flushed_q V c t) cover_q

/-! ## The key projection -/

/-- What a point writes back to the key projection's array is its block of the projection of the arrays the region is entered
    with: entry (p, e) of the payload is the sum over d of x(n, 256 i + p, d) · M(d, e) plus b(e), which is the
    projection at (n, 256 i + p, e). -/
theorem flushed_k (c : Dev nD) (t : Fin cfg0.N) :
    (dat0 (F := Ideal) V c).flushed 8 t
      = ((cfg0.win 8).blk t).view.read (Elt Ideal) (linT (V c main_arg0) (V c main_v3) (V c main_arg4)) := by
  show (cfg0.win 8).cut (grid0.coords t) ((dat0 V c).after 8 t) = _
  rw [after0_8]
  unfold out0_8
  rw [View.canon_unit_zero zeros3]
  simp only [View.ld_unit_zero (S := S1x256x1024) zeros3, View.ld_unit_zero (S := S1024x1024) zeros2, View.ld_unit_zero (S := S1024) zeros1]
  funext j
  have hj0 : (j 0).val < 1 := (j 0).isLt
  have hj1 : (j 1).val < 256 := (j 1).isLt
  have hj2 : (j 2).val < 1024 := (j 2).isLt
  obtain ⟨a0, a1, a2, b0, b1, b2, c0, c1, c2, r0, r1, r2⟩ := index_facts t
  obtain ⟨m10, m11, m2, m30, m31, m4, m50, m51, m6⟩ := whole_facts t
  show k0_pay4 (iblk0 V c 0 t) (iblk0 V c 3 t) (iblk0 V c 4 t) (win0_8.xinj (grid0.coords t) j) = linT (V c main_arg0) (V c main_v3) (V c main_arg4) (((cfg0.win 8).blk t).view.emb j)
  refine (payload_k_at (iblk0 V c 0 t) (iblk0 V c 3 t) (iblk0 V c 4 t) (win0_8.xinj (grid0.coords t) j) ⟨(j 1).val, hj1⟩ ⟨(j 2).val, hj2⟩ rfl rfl).trans ?_
  refine Eq.trans ?_ (linT_at (V c main_arg0) (V c main_v3) (V c main_arg4) (((cfg0.win 8).blk t).view.emb j)
    ⟨win0_7.index t (0 : Fin 3), r0⟩ ⟨win0_7.index t (1 : Fin 3) * 256 + (j 1).val, by omega⟩ ⟨(j 2).val, hj2⟩ ?_ ?_ ?_).symm
  · refine congrArg₂ (· + ·) (Finset.sum_congr rfl fun d _ => congrArg₂ (· * ·) ?_ ?_) ?_
    · exact x_block V c t (0 : Fin 1) ⟨(j 1).val, hj1⟩ d ⟨win0_7.index t (0 : Fin 3), r0⟩ ⟨win0_7.index t (1 : Fin 3) * 256 + (j 1).val, by omega⟩
        (by show win0_7.index t (0 : Fin 3) = win0_0.index t (0 : Fin 3); omega)
        (by show win0_7.index t (1 : Fin 3) * 256 + (j 1).val = win0_0.index t (1 : Fin 3) * 256 + (j 1).val; omega) a2
    · exact wk_block V c t d ⟨(j 2).val, hj2⟩ m30 m31
    · exact bk_block V c t ⟨(j 2).val, hj2⟩ m4
  · show win0_8.index t (0 : Fin 3) * 1 + 1 * (j 0).val = win0_7.index t (0 : Fin 3); omega
  · show win0_8.index t (1 : Fin 3) * 256 + 1 * (j 1).val = win0_7.index t (1 : Fin 3) * 256 + (j 1).val; omega
  · show win0_8.index t (2 : Fin 3) * 1024 + 1 * (j 2).val = (j 2).val; omega

/-- An index of the array is in a point's block iff each coordinate is in the block's range on its axis. -/
theorem mem_blk_k (t : Fin cfg0.N) (i : S8x2048x1024.Idx) :
    i ∈ ((cfg0.win 8).blk t).view.set ↔ ∀ a : Fin 3, win0_8.index t a * S1x256x1024.size a ≤ (i a).val ∧ (i a).val < win0_8.index t a * S1x256x1024.size a + S1x256x1024.size a := by
  show i ∈ ((View.whole main_v6_1).slice (win0_8.rect t)).set ↔ _
  rw [View.set_slice_whole, Rect.mem_set_unit]
  exact Iff.rfl

/-- Every index (n, s, e) of the array is in the block of the point whose block index is (n, s / 256, 0), and every point
    writes back. -/
theorem cover_k (i : S8x2048x1024.Idx) :
    ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 1024 := (i 2).isLt
  obtain ⟨t, ht⟩ := index_onto ⟨(i 0).val, hi0⟩ ⟨(i 1).val / 256, by omega⟩
  have q0 : win0_7.index t (0 : Fin 3) = (i 0).val := congrFun ht 0
  have q1 : win0_7.index t (1 : Fin 3) = (i 1).val / 256 := congrFun ht 1
  obtain ⟨a0, a1, a2, b0, b1, b2, c0, c1, c2, r0, r1, r2⟩ := index_facts t
  refine ⟨t, flush0_8 t, ?_⟩
  rw [mem_blk_k]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1024 ≤ (i 2).val ∧ (i 2).val < win0_8.index t (2 : Fin 3) * 1024 + 1024; omega

/-- The key projection's array after the region. -/
theorem arr_k (c : Dev nD) :
    (dat0 (F := Ideal) V c).arrAt 8 cfg0.N = linT (V c main_arg0) (V c main_v3) (V c main_arg4) :=
  (dat0 (F := Ideal) V c).arrAt_eq_of_cover 8 (linT (V c main_arg0) (V c main_v3) (V c main_arg4))
    (fun t _ => flushed_k V c t) cover_k

/-! ## The value projection -/

/-- What a point writes back to the value projection's array is its block of the projection of the arrays the region is entered
    with: entry (p, e) of the payload is the sum over d of x(n, 256 i + p, d) · M(d, e) plus b(e), which is the
    projection at (n, 256 i + p, e). -/
theorem flushed_v (c : Dev nD) (t : Fin cfg0.N) :
    (dat0 (F := Ideal) V c).flushed 9 t
      = ((cfg0.win 9).blk t).view.read (Elt Ideal) (linT (V c main_arg0) (V c main_v5) (V c main_arg6)) := by
  show (cfg0.win 9).cut (grid0.coords t) ((dat0 V c).after 9 t) = _
  rw [after0_9]
  unfold out0_9
  rw [View.canon_unit_zero zeros3]
  simp only [View.ld_unit_zero (S := S1x256x1024) zeros3, View.ld_unit_zero (S := S1024x1024) zeros2, View.ld_unit_zero (S := S1024) zeros1]
  funext j
  have hj0 : (j 0).val < 1 := (j 0).isLt
  have hj1 : (j 1).val < 256 := (j 1).isLt
  have hj2 : (j 2).val < 1024 := (j 2).isLt
  obtain ⟨a0, a1, a2, b0, b1, b2, c0, c1, c2, r0, r1, r2⟩ := index_facts t
  obtain ⟨m10, m11, m2, m30, m31, m4, m50, m51, m6⟩ := whole_facts t
  show k0_pay1 (k0_pay5 (iblk0 V c 0 t) (iblk0 V c 5 t) (iblk0 V c 6 t)) (win0_9.xinj (grid0.coords t) j) = linT (V c main_arg0) (V c main_v5) (V c main_arg6) (((cfg0.win 9).blk t).view.emb j)
  refine (payload_v_at (iblk0 V c 0 t) (iblk0 V c 5 t) (iblk0 V c 6 t) (win0_9.xinj (grid0.coords t) j) ⟨(j 1).val, hj1⟩ ⟨(j 2).val, hj2⟩ rfl rfl).trans ?_
  refine Eq.trans ?_ (linT_at (V c main_arg0) (V c main_v5) (V c main_arg6) (((cfg0.win 9).blk t).view.emb j)
    ⟨win0_7.index t (0 : Fin 3), r0⟩ ⟨win0_7.index t (1 : Fin 3) * 256 + (j 1).val, by omega⟩ ⟨(j 2).val, hj2⟩ ?_ ?_ ?_).symm
  · refine congrArg₂ (· + ·) (Finset.sum_congr rfl fun d _ => congrArg₂ (· * ·) ?_ ?_) ?_
    · exact x_block V c t (0 : Fin 1) ⟨(j 1).val, hj1⟩ d ⟨win0_7.index t (0 : Fin 3), r0⟩ ⟨win0_7.index t (1 : Fin 3) * 256 + (j 1).val, by omega⟩
        (by show win0_7.index t (0 : Fin 3) = win0_0.index t (0 : Fin 3); omega)
        (by show win0_7.index t (1 : Fin 3) * 256 + (j 1).val = win0_0.index t (1 : Fin 3) * 256 + (j 1).val; omega) a2
    · exact wv_block V c t d ⟨(j 2).val, hj2⟩ m50 m51
    · exact bv_block V c t ⟨(j 2).val, hj2⟩ m6
  · show win0_9.index t (0 : Fin 3) * 1 + 1 * (j 0).val = win0_7.index t (0 : Fin 3); omega
  · show win0_9.index t (1 : Fin 3) * 256 + 1 * (j 1).val = win0_7.index t (1 : Fin 3) * 256 + (j 1).val; omega
  · show win0_9.index t (2 : Fin 3) * 1024 + 1 * (j 2).val = (j 2).val; omega

/-- An index of the array is in a point's block iff each coordinate is in the block's range on its axis. -/
theorem mem_blk_v (t : Fin cfg0.N) (i : S8x2048x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v6_2).slice (win0_9.rect t)).set ↔ _
  rw [View.set_slice_whole, Rect.mem_set_unit]
  exact Iff.rfl

/-- Every index (n, s, e) of the array is in the block of the point whose block index is (n, s / 256, 0), and every point
    writes back. -/
theorem cover_v (i : S8x2048x1024.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 1024 := (i 2).isLt
  obtain ⟨t, ht⟩ := index_onto ⟨(i 0).val, hi0⟩ ⟨(i 1).val / 256, by omega⟩
  have q0 : win0_7.index t (0 : Fin 3) = (i 0).val := congrFun ht 0
  have q1 : win0_7.index t (1 : Fin 3) = (i 1).val / 256 := congrFun ht 1
  obtain ⟨a0, a1, a2, b0, b1, b2, c0, c1, c2, r0, r1, r2⟩ := index_facts t
  refine ⟨t, flush0_9 t, ?_⟩
  rw [mem_blk_v]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

/-- The value projection's array after the region. -/
theorem arr_v (c : Dev nD) :
    (dat0 (F := Ideal) V c).arrAt 9 cfg0.N = linT (V c main_arg0) (V c main_v5) (V c main_arg6) :=
  (dat0 (F := Ideal) V c).arrAt_eq_of_cover 9 (linT (V c main_arg0) (V c main_v5) (V c main_arg6))
    (fun t _ => flushed_v V c t) cover_v

end Cert.QueryAxisAttention.Projection

end
-- ==== Proof.Region1.lean ====
/-
  The statistics region: after its 64 grid points the two result arrays hold, for every key, the maximum over all
  queries of its column of scaled scores, and the sum over all queries of the exponentials of the scores less that maximum.
-/
import proofs.«111910_j20710332301555_1_alg».proof.Proof.Gen.KernelIdeal.Frame
import proofs.«111910_j20710332301555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.QueryAxisAttention.Statistics

open Cert.KernelIdeal Cert.KernelIdeal.Gen Cert.QueryAxisAttention

/-! ## The body's arithmetic at an index -/

/-- The zero offsets of a rank-3 whole-buffer rectangle. -/
theorem zero_offsets : (![0, 0, 0] : Fin 3 → Nat) = fun _ => 0 := funext fun a => by fin_cases a <;> rfl

/-- The product's left operand is read at the output's row … -/
theorem qk_lhs_row (i : S2048x256.Idx) (q : dot_S2048x1024_S256x1024_S2048x256_1_1_0_0_n_n.contr.Idx) :
    (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
/-- … and at the contracted feature. -/
theorem qk_lhs_feature (i : S2048x256.Idx) (q : dot_S2048x1024_S256x1024_S2048x256_1_1_0_0_n_n.contr.Idx) :
    (dot_S2048x1024_S256x1024_S2048x256_1_1_0_0_n_n.lhsIdx i q 1).val = (q ⟨0, by decide⟩).val :=
  dot_S2048x1024_S256x1024_S2048x256_1_1_0_0_n_n.lhsIdx_val_of_single rfl i q
/-- The right operand is read at the output's column, as ITS row … -/
theorem qk_rhs_row (i : S2048x256.Idx) (q : dot_S2048x1024_S256x1024_S2048x256_1_1_0_0_n_n.contr.Idx) :
    (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl
/-- … and at the contracted feature. -/
theorem qk_rhs_feature (i : S2048x256.Idx) (q : dot_S2048x1024_S256x1024_S2048x256_1_1_0_0_n_n.contr.Idx) :
    (dot_S2048x1024_S256x1024_S2048x256_1_1_0_0_n_n.rhsIdx i q 1).val = (q ⟨0, by decide⟩).val :=
  dot_S2048x1024_S256x1024_S2048x256_1_1_0_0_n_n.rhsIdx_val_of_single rfl i q

/-- The block's scaled scores: entry (s, t) is the inner product over the 1024 features of query row s with key row t
    of the two loaded blocks, times the scale word. -/
theorem block_scores_apply (x0 : Vec Ideal S1x2048x1024 .bf16) (x1 : Vec Ideal S1x256x1024 .bf16) (s : Fin 2048) (t : Fin 256) :
    k1_pay1 (F := Ideal) x0 x1 (ix2 s t)
      = (∑ d : Fin 1024, x0 (ix3 (0 : Fin 1) s d) * x1 (ix3 (0 : Fin 1) t d)) * Ideal.ofBits .f32 scaleWord := by
  unfold k1_pay1
  show matmul dot_S2048x1024_S256x1024_S2048x256_1_1_0_0_n_n none (shapeCast S2048x1024 x0 shapeCasts_S1x2048x1024_S2048x1024)
      (shapeCast S256x1024 x1 shapeCasts_S1x256x1024_S256x1024) (constant (F := Ideal) S2048x256 .f32 0x00000000#32) (ix2 s t)
        * Ideal.ofBits .f32 scaleWord = _
  refine congrArg (· * Ideal.ofBits .f32 scaleWord) ?_
  refine (Ideal.matmul_constant_zero_apply dot_S2048x1024_S256x1024_S2048x256_1_1_0_0_n_n none _ _ _).trans ?_
  rw [← Equiv.sum_comp (ValueIdx.contrEquiv1 dot_S2048x1024_S256x1024_S2048x256_1_1_0_0_n_n 1024 rfl rfl).symm]
  refine Finset.sum_congr rfl fun d _ => ?_
  have hd := ValueIdx.contrEquiv1_symm_val dot_S2048x1024_S256x1024_S2048x256_1_1_0_0_n_n 1024 rfl rfl d
  have el : dot_S2048x1024_S256x1024_S2048x256_1_1_0_0_n_n.lhsIdx (ix2 s t) ((ValueIdx.contrEquiv1 dot_S2048x1024_S256x1024_S2048x256_1_1_0_0_n_n 1024 rfl rfl).symm d) = ix2 s d := funext fun a => Fin.ext (by
    match a with
    | ⟨0, _⟩ => exact qk_lhs_row _ _
    | ⟨1, _⟩ => exact (qk_lhs_feature _ _).trans hd)
  have er : dot_S2048x1024_S256x1024_S2048x256_1_1_0_0_n_n.rhsIdx (ix2 s t) ((ValueIdx.contrEquiv1 dot_S2048x1024_S256x1024_S2048x256_1_1_0_0_n_n 1024 rfl rfl).symm d) = ix2 t d := funext fun a => Fin.ext (by
    match a with
    | ⟨0, _⟩ => exact qk_rhs_row _ _
    | ⟨1, _⟩ => exact (qk_rhs_feature _ _).trans hd)
  rw [el, er, shapeCast_1ab_ab_apply, shapeCast_1ab_ab_apply]

/-- The block's column maxima: entry (0, t) is the fold of max, from the word of -∞, of column t of the scaled scores. -/
theorem block_max_apply (x0 : Vec Ideal S1x2048x1024 .bf16) (x1 : Vec Ideal S1x256x1024 .bf16) (u : Fin 1) (t : Fin 256) :
    k1_pay2 (F := Ideal) x0 x1 (ix2 u t)
      = (Finset.univ : Finset (Fin 2048)).fold max (Ideal.ofBits .f32 negInfWord) fun s => k1_pay1 (F := Ideal) x0 x1 (ix2 s t) := by
  unfold k1_pay2
  refine (shapeCast_a_1a_apply _ _ u t).trans ?_
  refine (Ideal.multiReduction_maximumf_single _ _ _ _ _ _).trans ?_
  refine Finset.fold_congr fun s _ => ?_
  exact congrArg (k1_pay1 (F := Ideal) x0 x1) (funext fun a => Fin.ext (by
    match a with
    | ⟨0, _⟩ => rfl
    | ⟨1, _⟩ => rfl))

/-- The block's column sums: entry (0, 0, t) is the sum over the rows s of the exponential of the scaled score (s, t)
    less the column's maximum. -/
theorem block_sum_apply (x0 : Vec Ideal S1x2048x1024 .bf16) (x1 : Vec Ideal S1x256x1024 .bf16) (u v : Fin 1) (t : Fin 256) :
    k1_pay4 (F := Ideal) x0 x1 (ix3 u v t)
      = ∑ s : Fin 2048, Ideal.exp (k1_pay1 (F := Ideal) x0 x1 (ix2 s t) - k1_pay2 (F := Ideal) x0 x1 (ix2 (0 : Fin 1) t)) := by
  unfold k1_pay4
  refine (shapeCast_ab_1ab_apply _ _ u v t).trans ?_
  refine (shapeCast_a_1a_apply _ _ v t).trans ?_
  refine (Ideal.multiReduction_add_single _ _ _ _ _ _).trans ?_
  refine Finset.sum_congr rfl fun (s : Fin 2048) _ => ?_
  have e : (reduces_S2048x256_S256.lift (ix1 t) s : S2048x256.Idx) = ix2 s t := funext fun a => Fin.ext (by
    match a with
    | ⟨0, _⟩ => rfl
    | ⟨1, _⟩ => rfl)
  rw [e]
  show Ideal.exp (k1_pay1 (F := Ideal) x0 x1 (ix2 s t) - broadcastTo S2048x256 (k1_pay2 (F := Ideal) x0 x1) broadcasts_S1x256_S2048x256 (ix2 s t)) = _
  exact congrArg (fun z => Ideal.exp (k1_pay1 (F := Ideal) x0 x1 (ix2 s t) - z)) (broadcastTo_1b_ab_apply _ _ s t)

/-- The stored maxima: the same values under two unit axes. -/
theorem stored_max_apply (x0 : Vec Ideal S1x2048x1024 .bf16) (x1 : Vec Ideal S1x256x1024 .bf16) (u v : Fin 1) (t : Fin 256) :
    k1_pay3 (F := Ideal) x0 x1 (ix3 u v t) = k1_pay2 (F := Ideal) x0 x1 (ix2 v t) := by
  unfold k1_pay3
  exact shapeCast_ab_1ab_apply _ _ u v t

/-! ## The block's values as the specification's, given where the two blocks sit in the projections -/

/-- When the query block is batch n of q and row t of the key block is key T of batch n of k, the block's scaled score
    (s, t) is the specification's score of query s against key T. -/
theorem block_scores_eq (q k : Sbsd.Idx → EReal) (x0 : Vec Ideal S1x2048x1024 .bf16) (x1 : Vec Ideal S1x256x1024 .bf16)
    (n : Fin 8) (T : Fin 2048) (t : Fin 256)
    (h0 : ∀ (s : Fin 2048) (d : Fin 1024), x0 (ix3 (0 : Fin 1) s d) = q (ix3 n s d))
    (h1 : ∀ d : Fin 1024, x1 (ix3 (0 : Fin 1) t d) = k (ix3 n T d)) (s : Fin 2048) :
    k1_pay1 (F := Ideal) x0 x1 (ix2 s t) = scores q k (ix3 n s T) := by
  rw [block_scores_apply, scores_ix3]
  exact congrArg (· * Ideal.ofBits .f32 scaleWord) (Finset.sum_congr rfl fun d _ => by rw [h0 s d, h1 d])

/-- So the block's column maximum at t is the specification's maximum for key T. -/
theorem block_max_eq (q k : Sbsd.Idx → EReal) (x0 : Vec Ideal S1x2048x1024 .bf16) (x1 : Vec Ideal S1x256x1024 .bf16)
    (n : Fin 8) (T : Fin 2048) (t : Fin 256)
    (h0 : ∀ (s : Fin 2048) (d : Fin 1024), x0 (ix3 (0 : Fin 1) s d) = q (ix3 n s d))
    (h1 : ∀ d : Fin 1024, x1 (ix3 (0 : Fin 1) t d) = k (ix3 n T d)) (u : Fin 1) :
    k1_pay2 (F := Ideal) x0 x1 (ix2 u t) = colMax (scores q k) (ix3 n (0 : Fin 1) T) := by
  rw [block_max_apply, colMax_ix3]
  exact Finset.fold_congr fun s _ => block_scores_eq q k x0 x1 n T t h0 h1 s

/-- And the block's column sum at t is the specification's sum for key T, taken with that maximum as the shift. -/
theorem block_sum_eq (q k : Sbsd.Idx → EReal) (x0 : Vec Ideal S1x2048x1024 .bf16) (x1 : Vec Ideal S1x256x1024 .bf16)
    (n : Fin 8) (T : Fin 2048) (t : Fin 256)
    (h0 : ∀ (s : Fin 2048) (d : Fin 1024), x0 (ix3 (0 : Fin 1) s d) = q (ix3 n s d))
    (h1 : ∀ d : Fin 1024, x1 (ix3 (0 : Fin 1) t d) = k (ix3 n T d)) (u v : Fin 1) :
    k1_pay4 (F := Ideal) x0 x1 (ix3 u v t) = colSum (scores q k) (colMax (scores q k)) (ix3 n (0 : Fin 1) T) := by
  rw [block_sum_apply, colSum_ix3]
  refine Finset.sum_congr rfl fun s _ => ?_
  rw [block_scores_eq q k x0 x1 n T t h0 h1 s, block_max_eq q k x0 x1 n T t h0 h1 0]

/-! ## Where the blocks sit in the arrays -/

-- The buffer contents the region is entered with: every statement below holds for any such contents.
variable (V : (c : Dev nD) → (b : Ref sig .tc) → Buf (Elt Ideal) ((c : Thread nD τ).loc b))

/-- The four windows' index maps over the 64 grid points: the query block is the whole batch the output block belongs to,
    the key block is that batch's keys at the output block's position, both outputs move together, and the
    output's block indices stay inside 8 × 1 × 8. -/
theorem block_indices : ∀ t : Fin cfg1.N,
    win1_0.index t (0 : Fin 3) = win1_2.index t (0 : Fin 3) ∧ win1_0.index t (1 : Fin 3) = 0 ∧ win1_0.index t (2 : Fin 3) = 0
    ∧ win1_1.index t (0 : Fin 3) = win1_2.index t (0 : Fin 3) ∧ win1_1.index t (1 : Fin 3) = win1_2.index t (2 : Fin 3)
    ∧ win1_1.index t (2 : Fin 3) = 0
    ∧ win1_2.index t (1 : Fin 3) = 0 ∧ win1_2.index t (0 : Fin 3) ≤ 7 ∧ win1_2.index t (2 : Fin 3) ≤ 7
    ∧ win1_3.index t (0 : Fin 3) = win1_2.index t (0 : Fin 3) ∧ win1_3.index t (1 : Fin 3) = 0
    ∧ win1_3.index t (2 : Fin 3) = win1_2.index t (2 : Fin 3) :=
  (by decide +kernel : ∀ t : Fin grid1.N, _)

/-- Every (batch, key block) pair is some grid point's output block. -/
theorem block_onto : ∀ (a b : Fin 8), ∃ t : Fin cfg1.N, win1_2.index t (0 : Fin 3) = a.val ∧ win1_2.index t (2 : Fin 3) = b.val :=
  (by decide +kernel : ∀ (a b : Fin 8), ∃ t : Fin grid1.N, win1_2.index t (0 : Fin 3) = a.val ∧ win1_2.index t (2 : Fin 3) = b.val)

/-- The query block at a point is the whole of its batch of q. -/
theorem query_block (c : Dev nD) (t : Fin cfg1.N) (n : Fin 8) (hn : n.val = win1_2.index t (0 : Fin 3)) (s : Fin 2048) (d : Fin 1024) :
    (iblk1 (F := Ideal) V c 0 t : Vec Ideal S1x2048x1024 .bf16) (ix3 (0 : Fin 1) s d) = V c main_v6_0 (ix3 n s d) := by
  obtain ⟨e0, e1, e2, -⟩ := block_indices t
  unfold iblk1
  rw [View.read_apply]
  show V c main_v6_0 _ = V c main_v6_0 _
  congr 1
  funext a
  apply Fin.ext
  match a with
  | ⟨0, _⟩ => show win1_0.index t (0 : Fin 3) * 1 + 1 * 0 = n.val; omega
  | ⟨1, _⟩ => show win1_0.index t (1 : Fin 3) * 2048 + 1 * s.val = s.val; omega
  | ⟨2, _⟩ => show win1_0.index t (2 : Fin 3) * 1024 + 1 * d.val = d.val; omega

/-- Row r of the key block at a point is key 256 j + r of its batch of k, j the point's key-block index. -/
theorem key_block (c : Dev nD) (t : Fin cfg1.N) (n : Fin 8) (hn : n.val = win1_2.index t (0 : Fin 3)) (T : Fin 2048) (r : Fin 256)
    (hT : T.val = win1_2.index t (2 : Fin 3) * 256 + r.val) (d : Fin 1024) :
    (iblk1 (F := Ideal) V c 1 t : Vec Ideal S1x256x1024 .bf16) (ix3 (0 : Fin 1) r d) = V c main_v6_1 (ix3 n T d) := by
  obtain ⟨-, -, -, e0, e1, e2, -⟩ := block_indices t
  unfold iblk1
  rw [View.read_apply]
  show V c main_v6_1 _ = V c main_v6_1 _
  congr 1
  funext a
  apply Fin.ext
  match a with
  | ⟨0, _⟩ => show win1_1.index t (0 : Fin 3) * 1 + 1 * 0 = n.val; omega
  | ⟨1, _⟩ => show win1_1.index t (1 : Fin 3) * 256 + 1 * r.val = T.val; omega
  | ⟨2, _⟩ => show win1_1.index t (2 : Fin 3) * 1024 + 1 * d.val = d.val; omega

/-! ## What a point writes back, and the arrays after the region -/

/-- What a point writes back to the maxima is the block, at its output position, of the specification's maxima. -/
theorem flushed_max (c : Dev nD) (t : Fin cfg1.N) :
    (dat1 (F := Ideal) V c).flushed 2 t
      = ((cfg1.win 2).blk t).view.read (Elt Ideal) (colMax (scores (V c main_v6_0) (V c main_v6_1))) := by
  show (cfg1.win 2).cut (grid1.coords t) ((dat1 V c).after 2 t) = _
  rw [after1_2]
  unfold out1_2
  rw [View.canon_unit_zero zero_offsets]
  simp only [View.ld_unit_zero (S := S1x2048x1024) zero_offsets, View.ld_unit_zero (S := S1x256x1024) zero_offsets]
  obtain ⟨-, -, -, -, -, -, e1, b0, b2, -⟩ := block_indices t
  funext j
  obtain ⟨u, v, r, rfl⟩ : ∃ (u v : Fin 1) (r : Fin 256), j = ix3 u v r := ⟨j 0, j 1, j 2, eq_ix3 j⟩
  have hr : r.val < 256 := r.isLt
  have hu : u.val < 1 := u.isLt
  have hv : v.val < 1 := v.isLt
  obtain ⟨n, hn⟩ : ∃ n : Fin 8, n.val = win1_2.index t (0 : Fin 3) := ⟨⟨win1_2.index t (0 : Fin 3), by omega⟩, rfl⟩
  obtain ⟨T, hT⟩ : ∃ T : Fin 2048, T.val = win1_2.index t (2 : Fin 3) * 256 + r.val :=
    ⟨⟨win1_2.index t (2 : Fin 3) * 256 + r.val, by omega⟩, rfl⟩
  have hemb : ((cfg1.win 2).blk t).view.emb (ix3 u v r) = ix3 n (0 : Fin 1) T := by
    funext a; apply Fin.ext
    match a with
    | ⟨0, _⟩ => show win1_2.index t (0 : Fin 3) * 1 + 1 * u.val = n.val; omega
    | ⟨1, _⟩ => show win1_2.index t (1 : Fin 3) * 1 + 1 * v.val = 0; omega
    | ⟨2, _⟩ => show win1_2.index t (2 : Fin 3) * 256 + 1 * r.val = T.val; omega
  show k1_pay3 (F := Ideal) (iblk1 V c 0 t) (iblk1 V c 1 t) (ix3 u v r)
      = colMax (scores (V c main_v6_0) (V c main_v6_1)) (((cfg1.win 2).blk t).view.emb (ix3 u v r))
  refine Eq.trans ?_ (congrArg (colMax (scores (V c main_v6_0) (V c main_v6_1))) hemb).symm
  refine (stored_max_apply _ _ u v r).trans ?_
  exact block_max_eq (V c main_v6_0) (V c main_v6_1) (iblk1 V c 0 t) (iblk1 V c 1 t) n T r
    (fun s d => query_block V c t n hn s d) (fun d => key_block V c t n hn T r hT d) v

/-- What a point writes back to the sums is the block, at its output position, of the specification's sums. -/
theorem flushed_sum (c : Dev nD) (t : Fin cfg1.N) :
    (dat1 (F := Ideal) V c).flushed 3 t
      = ((cfg1.win 3).blk t).view.read (Elt Ideal)
          (colSum (scores (V c main_v6_0) (V c main_v6_1)) (colMax (scores (V c main_v6_0) (V c main_v6_1)))) := by
  show (cfg1.win 3).cut (grid1.coords t) ((dat1 V c).after 3 t) = _
  rw [after1_3]
  unfold out1_3
  rw [View.canon_unit_zero zero_offsets]
  simp only [View.ld_unit_zero (S := S1x2048x1024) zero_offsets, View.ld_unit_zero (S := S1x256x1024) zero_offsets]
  obtain ⟨-, -, -, -, -, -, e1, b0, b2, f0, f1, f2⟩ := block_indices t
  funext j
  obtain ⟨u, v, r, rfl⟩ : ∃ (u v : Fin 1) (r : Fin 256), j = ix3 u v r := ⟨j 0, j 1, j 2, eq_ix3 j⟩
  have hr : r.val < 256 := r.isLt
  have hu : u.val < 1 := u.isLt
  have hv : v.val < 1 := v.isLt
  obtain ⟨n, hn⟩ : ∃ n : Fin 8, n.val = win1_2.index t (0 : Fin 3) := ⟨⟨win1_2.index t (0 : Fin 3), by omega⟩, rfl⟩
  obtain ⟨T, hT⟩ : ∃ T : Fin 2048, T.val = win1_2.index t (2 : Fin 3) * 256 + r.val :=
    ⟨⟨win1_2.index t (2 : Fin 3) * 256 + r.val, by omega⟩, rfl⟩
  have hemb : ((cfg1.win 3).blk t).view.emb (ix3 u v r) = ix3 n (0 : Fin 1) T := by
    funext a; apply Fin.ext
    match a with
    | ⟨0, _⟩ => show win1_3.index t (0 : Fin 3) * 1 + 1 * u.val = n.val; omega
    | ⟨1, _⟩ => show win1_3.index t (1 : Fin 3) * 1 + 1 * v.val = 0; omega
    | ⟨2, _⟩ => show win1_3.index t (2 : Fin 3) * 256 + 1 * r.val = T.val; omega
  show k1_pay4 (F := Ideal) (iblk1 V c 0 t) (iblk1 V c 1 t) (ix3 u v r)
      = colSum (scores (V c main_v6_0) (V c main_v6_1)) (colMax (scores (V c main_v6_0) (V c main_v6_1)))
          (((cfg1.win 3).blk t).view.emb (ix3 u v r))
  refine Eq.trans ?_ (congrArg (colSum (scores (V c main_v6_0) (V c main_v6_1)) (colMax (scores (V c main_v6_0) (V c main_v6_1)))) hemb).symm
  exact block_sum_eq (V c main_v6_0) (V c main_v6_1) (iblk1 V c 0 t) (iblk1 V c 1 t) n T r
    (fun s d => query_block V c t n hn s d) (fun d => key_block V c t n hn T r hT d) u v

/-- An index of the maxima's array is in a point's block iff each coordinate is in the block's range on its axis. -/
theorem mem_max_block (t : Fin cfg1.N) (i : S8x1x2048.Idx) :
    i ∈ ((cfg1.win 2).blk t).view.set
      ↔ ∀ a : Fin 3, win1_2.index t a * S1x1x256.size a ≤ (i a).val ∧ (i a).val < win1_2.index t a * S1x1x256.size a + S1x1x256.size a := by
  show i ∈ ((View.whole main_v7_0).slice (win1_2.rect t)).set ↔ _
  rw [View.set_slice_whole, Rect.mem_set_unit]
  exact Iff.rfl

/-- The same for the sums' array. -/
theorem mem_sum_block (t : Fin cfg1.N) (i : S8x1x2048.Idx) :
    i ∈ ((cfg1.win 3).blk t).view.set
      ↔ ∀ a : Fin 3, win1_3.index t a * S1x1x256.size a ≤ (i a).val ∧ (i a).val < win1_3.index t a * S1x1x256.size a + S1x1x256.size a := by
  show i ∈ ((View.whole main_v7_1).slice (win1_3.rect t)).set ↔ _
  rw [View.set_slice_whole, Rect.mem_set_unit]
  exact Iff.rfl

/-- Every index (n, 0, T) of the maxima's array is in the block of the point with output block (n, T / 256). -/
theorem max_covered (i : S8x1x2048.Idx) :
    ∃ t : Fin cfg1.N, (cfg1.win 2).flush t = true ∧ i ∈ ((cfg1.win 2).blk t).view.set := by
  have hi0 : (i 0).val < 8 := (i 0).isLt
  have hi1 : (i 1).val < 1 := (i 1).isLt
  have hi2 : (i 2).val < 2048 := (i 2).isLt
  obtain ⟨t, q0, q2⟩ := block_onto ⟨(i 0).val, hi0⟩ ⟨(i 2).val / 256, by omega⟩
  have q0' : win1_2.index t (0 : Fin 3) = (i 0).val := q0
  have q2' : win1_2.index t (2 : Fin 3) = (i 2).val / 256 := q2
  obtain ⟨-, -, -, -, -, -, e1, -⟩ := block_indices t
  refine ⟨t, flush1_2 t, ?_⟩
  rw [mem_max_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 256 ≤ (i 2).val ∧ (i 2).val < win1_2.index t (2 : Fin 3) * 256 + 256; omega

/-- The same for the sums' array. -/
theorem sum_covered (i : S8x1x2048.Idx) :
    ∃ t : Fin cfg1.N, (cfg1.win 3).flush t = true ∧ i ∈ ((cfg1.win 3).blk t).view.set := by
  have hi0 : (i 0).val < 8 := (i 0).isLt
  have hi1 : (i 1).val < 1 := (i 1).isLt
  have hi2 : (i 2).val < 2048 := (i 2).isLt
  obtain ⟨t, q0, q2⟩ := block_onto ⟨(i 0).val, hi0⟩ ⟨(i 2).val / 256, by omega⟩
  have q0' : win1_2.index t (0 : Fin 3) = (i 0).val := q0
  have q2' : win1_2.index t (2 : Fin 3) = (i 2).val / 256 := q2
  obtain ⟨-, -, -, -, -, -, e1, -, -, f0, f1, f2⟩ := block_indices t
  refine ⟨t, flush1_3 t, ?_⟩
  rw [mem_sum_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 256 ≤ (i 2).val ∧ (i 2).val < win1_3.index t (2 : Fin 3) * 256 + 256; omega

/-- The per-key maxima after the region. -/
theorem arr_max (c : Dev nD) :
    (dat1 (F := Ideal) V c).arrAt 2 cfg1.N = colMax (scores (V c main_v6_0) (V c main_v6_1)) :=
  (dat1 (F := Ideal) V c).arrAt_eq_of_cover 2 (colMax (scores (V c main_v6_0) (V c main_v6_1)))
    (fun t _ => flushed_max V c t) max_covered

/-- The per-key sums of exponentials after the region. -/
theorem arr_sum (c : Dev nD) :
    (dat1 (F := Ideal) V c).arrAt 3 cfg1.N
      = colSum (scores (V c main_v6_0) (V c main_v6_1)) (colMax (scores (V c main_v6_0) (V c main_v6_1))) :=
  (dat1 (F := Ideal) V c).arrAt_eq_of_cover 3
    (colSum (scores (V c main_v6_0) (V c main_v6_1)) (colMax (scores (V c main_v6_0) (V c main_v6_1))))
    (fun t _ => flushed_sum V c t) sum_covered

end Cert.QueryAxisAttention.Statistics

end
-- ==== Proof.Region2.lean ====
/-
  The final region: after its 64 grid points the weights array holds exp(score - shift) / normaliser with the shift and
  the normaliser read from the two per-key arrays it is entered with, and the output array the combination of the value
  rows with those weights.
-/
import proofs.«111910_j20710332301555_1_alg».proof.Proof.Gen.KernelIdeal.Frame
import proofs.«111910_j20710332301555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.QueryAxisAttention.Final

open Cert.KernelIdeal Cert.KernelIdeal.Gen Cert.QueryAxisAttention

/-! ## The two contractions, index by index -/

theorem qk_lhs_0 (j : S256x2048.Idx) (q : dot_S256x1024_S2048x1024_S256x2048_1_1_0_0_n_n.contr.Idx) :
    (dot_S256x1024_S2048x1024_S256x2048_1_1_0_0_n_n.lhsIdx j q 0).val = (j 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem qk_lhs_1 (j : S256x2048.Idx) (q : dot_S256x1024_S2048x1024_S256x2048_1_1_0_0_n_n.contr.Idx) :
    (dot_S256x1024_S2048x1024_S256x2048_1_1_0_0_n_n.lhsIdx j q 1).val = (q ⟨0, by decide⟩).val :=
  dot_S256x1024_S2048x1024_S256x2048_1_1_0_0_n_n.lhsIdx_val_of_single rfl j q
theorem qk_rhs_0 (j : S256x2048.Idx) (q : dot_S256x1024_S2048x1024_S256x2048_1_1_0_0_n_n.contr.Idx) :
    (dot_S256x1024_S2048x1024_S256x2048_1_1_0_0_n_n.rhsIdx j q 0).val = (j 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem qk_rhs_1 (j : S256x2048.Idx) (q : dot_S256x1024_S2048x1024_S256x2048_1_1_0_0_n_n.contr.Idx) :
    (dot_S256x1024_S2048x1024_S256x2048_1_1_0_0_n_n.rhsIdx j q 1).val = (q ⟨0, by decide⟩).val :=
  dot_S256x1024_S2048x1024_S256x2048_1_1_0_0_n_n.rhsIdx_val_of_single rfl j q

/-- Entry (r, t) of the first product into a zero accumulator is the inner product of row r of the left operand with
    row t of the right. -/
theorem qk_apply (a : FVec Ideal S256x1024 .bf16) (b : FVec Ideal S2048x1024 .bf16) (r : Fin 256) (t : Fin 2048) :
    matmul dot_S256x1024_S2048x1024_S256x2048_1_1_0_0_n_n none a b (constant (F := Ideal) S256x2048 .f32 0x00000000#32) (ix2 r t)
      = ∑ d : Fin 1024, a (ix2 r d) * b (ix2 t d) := by
  refine (Ideal.matmul_constant_zero_apply dot_S256x1024_S2048x1024_S256x2048_1_1_0_0_n_n none a b (ix2 r t)).trans ?_
  rw [← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ix2 r t) ((ValueIdx.contrEquiv1 dot_S256x1024_S2048x1024_S256x2048_1_1_0_0_n_n 1024 rfl rfl).symm k) = ix2 r k := funext fun a => Fin.ext (by
    match a with
    | ⟨0, _⟩ => exact qk_lhs_0 _ _
    | ⟨1, _⟩ => exact (qk_lhs_1 _ _).trans hk)
  have er : dot_S256x1024_S2048x1024_S256x2048_1_1_0_0_n_n.rhsIdx (ix2 r t) ((ValueIdx.contrEquiv1 dot_S256x1024_S2048x1024_S256x2048_1_1_0_0_n_n 1024 rfl rfl).symm k) = ix2 t k := funext fun a => Fin.ext (by
    match a with
    | ⟨0, _⟩ => exact qk_rhs_0 _ _
    | ⟨1, _⟩ => exact (qk_rhs_1 _ _).trans hk)
  rw [el, er]

theorem wv_lhs_0 (j : S256x1024.Idx) (q : dot_S256x2048_S2048x1024_S256x1024_1_0_0_1_n_n.contr.Idx) :
    (dot_S256x2048_S2048x1024_S256x1024_1_0_0_1_n_n.lhsIdx j q 0).val = (j 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem wv_lhs_1 (j : S256x1024.Idx) (q : dot_S256x2048_S2048x1024_S256x1024_1_0_0_1_n_n.contr.Idx) :
    (dot_S256x2048_S2048x1024_S256x1024_1_0_0_1_n_n.lhsIdx j q 1).val = (q ⟨0, by decide⟩).val :=
  dot_S256x2048_S2048x1024_S256x1024_1_0_0_1_n_n.lhsIdx_val_of_single rfl j q
theorem wv_rhs_0 (j : S256x1024.Idx) (q : dot_S256x2048_S2048x1024_S256x1024_1_0_0_1_n_n.contr.Idx) :
    (dot_S256x2048_S2048x1024_S256x1024_1_0_0_1_n_n.rhsIdx j q 0).val = (q ⟨0, by decide⟩).val :=
  dot_S256x2048_S2048x1024_S256x1024_1_0_0_1_n_n.rhsIdx_val_of_single rfl j q
theorem wv_rhs_1 (j : S256x1024.Idx) (q : dot_S256x2048_S2048x1024_S256x1024_1_0_0_1_n_n.contr.Idx) :
    (dot_S256x2048_S2048x1024_S256x1024_1_0_0_1_n_n.rhsIdx j q 1).val = (j 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Entry (r, e) of the second product into a zero accumulator is the sum over the 2048 keys of the left operand at
    (r, t) times the right at (t, e). -/
theorem wv_apply (a : FVec Ideal S256x2048 .bf16) (b : FVec Ideal S2048x1024 .bf16) (r : Fin 256) (e : Fin 1024) :
    matmul dot_S256x2048_S2048x1024_S256x1024_1_0_0_1_n_n none a b (constant (F := Ideal) S256x1024 .f32 0x00000000#32) (ix2 r e)
      = ∑ t : Fin 2048, a (ix2 r t) * b (ix2 t e) := by
  refine (Ideal.matmul_constant_zero_apply dot_S256x2048_S2048x1024_S256x1024_1_0_0_1_n_n none a b (ix2 r e)).trans ?_
  rw [← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 r e) ((ValueIdx.contrEquiv1 dot_S256x2048_S2048x1024_S256x1024_1_0_0_1_n_n 2048 rfl rfl).symm k) = ix2 r k := funext fun a => Fin.ext (by
    match a with
    | ⟨0, _⟩ => exact wv_lhs_0 _ _
    | ⟨1, _⟩ => exact (wv_lhs_1 _ _).trans hk)
  have er : dot_S256x2048_S2048x1024_S256x1024_1_0_0_1_n_n.rhsIdx (ix2 r e) ((ValueIdx.contrEquiv1 dot_S256x2048_S2048x1024_S256x1024_1_0_0_1_n_n 2048 rfl rfl).symm k) = ix2 k e := funext fun a => Fin.ext (by
    match a with
    | ⟨0, _⟩ => exact (wv_rhs_0 _ _).trans hk
    | ⟨1, _⟩ => exact wv_rhs_1 _ _)
  rw [el, er]

/-! ## The body's arithmetic at an index -/

/-- The block of weights the body computes, at row r of the query block and key t: the inner product of query row r
    with key row t, times 1/32, less the shift of key t, exponentiated and divided by the normaliser of key t. -/
theorem pay1_apply (q : Vec Ideal S1x256x1024 .bf16) (k : Vec Ideal S1x2048x1024 .bf16) (mx z : Vec Ideal S1x1x2048 .f32)
    (r : Fin 256) (t : Fin 2048) :
    k2_pay1 (F := Ideal) q k mx z (ix2 r t)
      = Ideal.div (Ideal.exp ((∑ d : Fin 1024, q (ix3 (0 : Fin 1) r d) * k (ix3 (0 : Fin 1) t d)) * Ideal.ofBits .f32 scaleWord
            - mx (ix3 (0 : Fin 1) (0 : Fin 1) t))) (z (ix3 (0 : Fin 1) (0 : Fin 1) t)) := by
  unfold k2_pay1
  show Ideal.div (Ideal.exp (matmul dot_S256x1024_S2048x1024_S256x2048_1_1_0_0_n_n none (shapeCast S256x1024 q _) (shapeCast S2048x1024 k _)
        (constant (F := Ideal) S256x2048 .f32 0x00000000#32) (ix2 r t) * Ideal.ofBits .f32 0x3D000000#32
      - broadcastTo S256x2048 (shapeCast S1x2048 mx _) _ (ix2 r t))) (broadcastTo S256x2048 (shapeCast S1x2048 z _) _ (ix2 r t)) = _
  rw [qk_apply, broadcastTo_1b_ab_apply, broadcastTo_1b_ab_apply, shapeCast_1ab_ab_apply, shapeCast_1ab_ab_apply]
  simp only [shapeCast_1ab_ab_apply]

/-- What the body stores to the weights' buffer, at (u, r, t): the block of weights at (r, t). -/
theorem pay2_apply (q : Vec Ideal S1x256x1024 .bf16) (k : Vec Ideal S1x2048x1024 .bf16) (mx z : Vec Ideal S1x1x2048 .f32)
    (u : Fin 1) (r : Fin 256) (t : Fin 2048) :
    k2_pay2 (F := Ideal) q k mx z (ix3 u r t) = k2_pay1 (F := Ideal) q k mx z (ix2 r t) := by
  unfold k2_pay2
  exact shapeCast_ab_1ab_apply _ _ u r t

/-- What the body stores to the output's buffer, at (u, r, e): the sum over the keys of the block of weights at (r, t)
    times the value row t at feature e. -/
theorem pay3_apply (q : Vec Ideal S1x256x1024 .bf16) (k v : Vec Ideal S1x2048x1024 .bf16) (mx z : Vec Ideal S1x1x2048 .f32)
    (u : Fin 1) (r : Fin 256) (e : Fin 1024) :
    k2_pay3 (F := Ideal) q k v mx z (ix3 u r e)
      = ∑ t : Fin 2048, k2_pay1 (F := Ideal) q k mx z (ix2 r t) * v (ix3 (0 : Fin 1) t e) := by
  unfold k2_pay3
  refine (shapeCast_ab_1ab_apply _ _ u r e).trans ?_
  refine (wv_apply _ _ r e).trans ?_
  refine Finset.sum_congr rfl fun t _ => ?_
  exact congrArg (k2_pay1 (F := Ideal) q k mx z (ix2 r t) * ·) (shapeCast_1ab_ab_apply v _ t e)

/-! ## The blocks each grid point reads and writes

  The grid is 8 × 8: point (n, i) handles the queries 256 i … 256 i + 255 of batch n. It reads that block of queries,
  all keys and all values of batch n, and the two per-key rows of batch n; it writes the same block of rows of both
  results. -/

theorem hz3 : (![0, 0, 0] : Fin 3 → Nat) = fun _ => 0 := funext fun a => by fin_cases a <;> rfl

/-- The printed index maps, decided over the grid: the query window and the output window move with the weights
    window; the key, value and per-key windows follow its batch coordinate and stay at block 0 on the other axes; the
    weights window's block coordinates stay below 8, 8 and 1. -/
theorem idx_facts : ∀ t : Fin cfg2.N,
    win2_0.index t (0 : Fin 3) = win2_6.index t (0 : Fin 3) ∧ win2_0.index t (1 : Fin 3) = win2_6.index t (1 : Fin 3) ∧ win2_0.index t (2 : Fin 3) = 0
    ∧ win2_1.index t (0 : Fin 3) = win2_6.index t (0 : Fin 3) ∧ win2_1.index t (1 : Fin 3) = 0 ∧ win2_1.index t (2 : Fin 3) = 0
    ∧ win2_2.index t (0 : Fin 3) = win2_6.index t (0 : Fin 3) ∧ win2_2.index t (1 : Fin 3) = 0 ∧ win2_2.index t (2 : Fin 3) = 0
    ∧ win2_3.index t (0 : Fin 3) = win2_6.index t (0 : Fin 3) ∧ win2_3.index t (1 : Fin 3) = 0 ∧ win2_3.index t (2 : Fin 3) = 0
    ∧ win2_4.index t (0 : Fin 3) = win2_6.index t (0 : Fin 3) ∧ win2_4.index t (1 : Fin 3) = 0 ∧ win2_4.index t (2 : Fin 3) = 0
    ∧ win2_5.index t (0 : Fin 3) = win2_6.index t (0 : Fin 3) ∧ win2_5.index t (1 : Fin 3) = win2_6.index t (1 : Fin 3) ∧ win2_5.index t (2 : Fin 3) = 0
    ∧ win2_6.index t (0 : Fin 3) < 8 ∧ win2_6.index t (1 : Fin 3) < 8 ∧ win2_6.index t (2 : Fin 3) = 0 :=
  (by decide +kernel : ∀ t : Fin grid2.N, _)

/-- Every (batch, query block) pair is some point's. -/
theorem idx_onto : ∀ (n : Fin 8) (i : Fin 8), ∃ t : Fin cfg2.N, win2_6.index t = ![n.val, i.val, 0] :=
  (by decide +kernel : ∀ (n : Fin 8) (i : Fin 8), ∃ t : Fin grid2.N, win2_6.index t = ![n.val, i.val, 0])

-- The buffer contents the region is entered with: every statement below holds for any such contents.
variable (V : (c : Dev nD) → (b : Ref sig .tc) → Buf (Elt Ideal) ((c : Thread nD τ).loc b))

/-- The query block of a point is rows 256 i … 256 i + 255 of batch n of the query array. -/
theorem q_block (c : Dev nD) (t : Fin cfg2.N) (u : Fin 1) (r : Fin 256) (d : Fin 1024) (n : Fin 8) (s : Fin 2048)
    (h0 : win2_0.index t (0 : Fin 3) = n.val) (h1 : win2_0.index t (1 : Fin 3) * 256 + r.val = s.val) (h2 : win2_0.index t (2 : Fin 3) = 0) :
    (iblk2 V c 0 t : Vec Ideal S1x256x1024 .bf16) (ix3 u r d) = (V c main_v6_0 : S8x2048x1024.Idx → EReal) (ix3 n s d) := by
  unfold iblk2
  rw [View.read_apply]
  show V c main_v6_0 _ = V c main_v6_0 _
  congr 1
  funext a
  apply Fin.ext
  match a with
  | ⟨0, _⟩ => show win2_0.index t (0 : Fin 3) * 1 + 1 * u.val = n.val; omega
  | ⟨1, _⟩ => show win2_0.index t (1 : Fin 3) * 256 + 1 * r.val = s.val; omega
  | ⟨2, _⟩ => show win2_0.index t (2 : Fin 3) * 1024 + 1 * d.val = d.val; omega

/-- The key block of a point is all rows of batch n of the key array. -/
theorem k_block (c : Dev nD) (t : Fin cfg2.N) (u : Fin 1) (k : Fin 2048) (d : Fin 1024) (n : Fin 8)
    (h0 : win2_1.index t (0 : Fin 3) = n.val) (h1 : win2_1.index t (1 : Fin 3) = 0) (h2 : win2_1.index t (2 : Fin 3) = 0) :
    (iblk2 V c 1 t : Vec Ideal S1x2048x1024 .bf16) (ix3 u k d) = (V c main_v6_1 : S8x2048x1024.Idx → EReal) (ix3 n k d) := by
  unfold iblk2
  rw [View.read_apply]
  show V c main_v6_1 _ = V c main_v6_1 _
  congr 1
  funext a
  apply Fin.ext
  match a with
  | ⟨0, _⟩ => show win2_1.index t (0 : Fin 3) * 1 + 1 * u.val = n.val; omega
  | ⟨1, _⟩ => show win2_1.index t (1 : Fin 3) * 2048 + 1 * k.val = k.val; omega
  | ⟨2, _⟩ => show win2_1.index t (2 : Fin 3) * 1024 + 1 * d.val = d.val; omega

/-- The value block of a point is all rows of batch n of the value array. -/
theorem v_block (c : Dev nD) (t : Fin cfg2.N) (u : Fin 1) (k : Fin 2048) (e : Fin 1024) (n : Fin 8)
    (h0 : win2_2.index t (0 : Fin 3) = n.val) (h1 : win2_2.index t (1 : Fin 3) = 0) (h2 : win2_2.index t (2 : Fin 3) = 0) :
    (iblk2 V c 2 t : Vec Ideal S1x2048x1024 .bf16) (ix3 u k e) = (V c main_v6_2 : S8x2048x1024.Idx → EReal) (ix3 n k e) := by
  unfold iblk2
  rw [View.read_apply]
  show V c main_v6_2 _ = V c main_v6_2 _
  congr 1
  funext a
  apply Fin.ext
  match a with
  | ⟨0, _⟩ => show win2_2.index t (0 : Fin 3) * 1 + 1 * u.val = n.val; omega
  | ⟨1, _⟩ => show win2_2.index t (1 : Fin 3) * 2048 + 1 * k.val = k.val; omega
  | ⟨2, _⟩ => show win2_2.index t (2 : Fin 3) * 1024 + 1 * e.val = e.val; omega

/-- The shift block of a point is the row of batch n of the shift array. -/
theorem shift_block (c : Dev nD) (t : Fin cfg2.N) (u u' : Fin 1) (k : Fin 2048) (n : Fin 8)
    (h0 : win2_3.index t (0 : Fin 3) = n.val) (h1 : win2_3.index t (1 : Fin 3) = 0) (h2 : win2_3.index t (2 : Fin 3) = 0) :
    (iblk2 V c 3 t : Vec Ideal S1x1x2048 .f32) (ix3 u u' k) = (V c main_v7_0 : S8x1x2048.Idx → EReal) (ix3 n (0 : Fin 1) k) := by
  unfold iblk2
  rw [View.read_apply]
  show V c main_v7_0 _ = V c main_v7_0 _
  congr 1
  funext a
  apply Fin.ext
  match a with
  | ⟨0, _⟩ => show win2_3.index t (0 : Fin 3) * 1 + 1 * u.val = n.val; omega
  | ⟨1, _⟩ => show win2_3.index t (1 : Fin 3) * 1 + 1 * u'.val = 0; omega
  | ⟨2, _⟩ => show win2_3.index t (2 : Fin 3) * 2048 + 1 * k.val = k.val; omega

/-- The normaliser block of a point is the row of batch n of the normaliser array. -/
theorem norm_block (c : Dev nD) (t : Fin cfg2.N) (u u' : Fin 1) (k : Fin 2048) (n : Fin 8)
    (h0 : win2_4.index t (0 : Fin 3) = n.val) (h1 : win2_4.index t (1 : Fin 3) = 0) (h2 : win2_4.index t (2 : Fin 3) = 0) :
    (iblk2 V c 4 t : Vec Ideal S1x1x2048 .f32) (ix3 u u' k) = (V c main_v7_1 : S8x1x2048.Idx → EReal) (ix3 n (0 : Fin 1) k) := by
  unfold iblk2
  rw [View.read_apply]
  show V c main_v7_1 _ = V c main_v7_1 _
  congr 1
  funext a
  apply Fin.ext
  match a with
  | ⟨0, _⟩ => show win2_4.index t (0 : Fin 3) * 1 + 1 * u.val = n.val; omega
  | ⟨1, _⟩ => show win2_4.index t (1 : Fin 3) * 1 + 1 * u'.val = 0; omega
  | ⟨2, _⟩ => show win2_4.index t (2 : Fin 3) * 2048 + 1 * k.val = k.val; omega

/-! ## What each point writes back, and the arrays after the last point -/

/-- WHAT A POINT WRITES BACK TO THE WEIGHTS is its block of the weights as one function of the entry arrays. -/
theorem flushed_weights (c : Dev nD) (t : Fin cfg2.N) :
    (dat2 (F := Ideal) V c).flushed 6 t
      = ((cfg2.win 6).blk t).view.read (Elt Ideal) (weights (scores (V c main_v6_0) (V c main_v6_1)) (V c main_v7_0) (V c main_v7_1)) := by
  show (cfg2.win 6).cut (grid2.coords t) ((dat2 V c).after 6 t) = _
  rw [after2_6]
  unfold out2_6
  rw [View.canon_unit_zero hz3]
  simp only [View.ld_unit_zero (S := S1x256x1024) hz3, View.ld_unit_zero (S := S1x2048x1024) hz3, View.ld_unit_zero (S := S1x1x2048) hz3]
  obtain ⟨a0, a1, a2, b0, b1, b2, c0, c1, c2, d0, d1, d2, e0, e1, e2, f0, f1, f2, g0, g1, g2⟩ := idx_facts t
  funext j
  obtain ⟨u, r, k, rfl⟩ : ∃ (u : Fin 1) (r : Fin 256) (k : Fin 2048), j = ix3 u r k := ⟨j 0, j 1, j 2, eq_ix3 j⟩
  show k2_pay2 (F := Ideal) (iblk2 V c 0 t) (iblk2 V c 1 t) (iblk2 V c 3 t) (iblk2 V c 4 t) (ix3 u r k)
    = weights (scores (V c main_v6_0) (V c main_v6_1)) (V c main_v7_0) (V c main_v7_1) (((cfg2.win 6).blk t).view.emb (ix3 u r k))
  have hemb : ((cfg2.win 6).blk t).view.emb (ix3 u r k)
      = ix3 (⟨win2_6.index t (0 : Fin 3), g0⟩ : Fin 8) (⟨win2_6.index t (1 : Fin 3) * 256 + r.val, by omega⟩ : Fin 2048) k := by
    funext a
    apply Fin.ext
    match a with
    | ⟨0, _⟩ => show win2_6.index t (0 : Fin 3) * 1 + 1 * u.val = win2_6.index t (0 : Fin 3); omega
    | ⟨1, _⟩ => show win2_6.index t (1 : Fin 3) * 256 + 1 * r.val = win2_6.index t (1 : Fin 3) * 256 + r.val; omega
    | ⟨2, _⟩ => show win2_6.index t (2 : Fin 3) * 2048 + 1 * k.val = k.val; omega
  rw [hemb, weights_ix3, scores_ix3]
  refine (pay2_apply _ _ _ _ u r k).trans ?_
  refine (pay1_apply _ _ _ _ r k).trans ?_
  rw [shift_block V c t 0 0 k ⟨win2_6.index t (0 : Fin 3), g0⟩ d0 d1 d2, norm_block V c t 0 0 k ⟨win2_6.index t (0 : Fin 3), g0⟩ e0 e1 e2]
  refine congrArg (fun x => Ideal.div (Ideal.exp (x * Ideal.ofBits .f32 scaleWord - _)) _) ?_
  refine Finset.sum_congr rfl fun d _ => ?_
  rw [q_block V c t 0 r d ⟨win2_6.index t (0 : Fin 3), g0⟩ ⟨win2_6.index t (1 : Fin 3) * 256 + r.val, by omega⟩ a0 (by rw [a1]) a2,
    k_block V c t 0 k d ⟨win2_6.index t (0 : Fin 3), g0⟩ b0 b1 b2]

/-- WHAT A POINT WRITES BACK TO THE OUTPUT is its block of the combination of the value rows with the weights. -/
theorem flushed_output (c : Dev nD) (t : Fin cfg2.N) :
    (dat2 (F := Ideal) V c).flushed 5 t
      = ((cfg2.win 5).blk t).view.read (Elt Ideal)
          (combine (weights (scores (V c main_v6_0) (V c main_v6_1)) (V c main_v7_0) (V c main_v7_1)) (V c main_v6_2)) := by
  show (cfg2.win 5).cut (grid2.coords t) ((dat2 V c).after 5 t) = _
  rw [after2_5]
  unfold out2_5
  rw [View.canon_unit_zero hz3]
  simp only [View.ld_unit_zero (S := S1x256x1024) hz3, View.ld_unit_zero (S := S1x2048x1024) hz3, View.ld_unit_zero (S := S1x1x2048) hz3]
  obtain ⟨a0, a1, a2, b0, b1, b2, c0, c1, c2, d0, d1, d2, e0, e1, e2, f0, f1, f2, g0, g1, g2⟩ := idx_facts t
  funext j
  obtain ⟨u, r, e, rfl⟩ : ∃ (u : Fin 1) (r : Fin 256) (e : Fin 1024), j = ix3 u r e := ⟨j 0, j 1, j 2, eq_ix3 j⟩
  show k2_pay3 (F := Ideal) (iblk2 V c 0 t) (iblk2 V c 1 t) (iblk2 V c 2 t) (iblk2 V c 3 t) (iblk2 V c 4 t) (ix3 u r e)
    = combine (weights (scores (V c main_v6_0) (V c main_v6_1)) (V c main_v7_0) (V c main_v7_1)) (V c main_v6_2)
        (((cfg2.win 5).blk t).view.emb (ix3 u r e))
  have hemb : ((cfg2.win 5).blk t).view.emb (ix3 u r e)
      = ix3 (⟨win2_6.index t (0 : Fin 3), g0⟩ : Fin 8) (⟨win2_6.index t (1 : Fin 3) * 256 + r.val, by omega⟩ : Fin 2048) e := by
    funext a
    apply Fin.ext
    match a with
    | ⟨0, _⟩ => show win2_5.index t (0 : Fin 3) * 1 + 1 * u.val = win2_6.index t (0 : Fin 3); omega
    | ⟨1, _⟩ => show win2_5.index t (1 : Fin 3) * 256 + 1 * r.val = win2_6.index t (1 : Fin 3) * 256 + r.val; omega
    | ⟨2, _⟩ => show win2_5.index t (2 : Fin 3) * 1024 + 1 * e.val = e.val; omega
  rw [hemb, combine_ix3]
  refine (pay3_apply _ _ _ _ _ u r e).trans ?_
  refine Finset.sum_congr rfl fun k _ => ?_
  rw [v_block V c t 0 k e ⟨win2_6.index t (0 : Fin 3), g0⟩ c0 c1 c2, weights_ix3, scores_ix3]
  refine congrArg (· * _) ?_
  refine (pay1_apply _ _ _ _ r k).trans ?_
  rw [shift_block V c t 0 0 k ⟨win2_6.index t (0 : Fin 3), g0⟩ d0 d1 d2, norm_block V c t 0 0 k ⟨win2_6.index t (0 : Fin 3), g0⟩ e0 e1 e2]
  refine congrArg (fun x => Ideal.div (Ideal.exp (x * Ideal.ofBits .f32 scaleWord - _)) _) ?_
  refine Finset.sum_congr rfl fun d _ => ?_
  rw [q_block V c t 0 r d ⟨win2_6.index t (0 : Fin 3), g0⟩ ⟨win2_6.index t (1 : Fin 3) * 256 + r.val, by omega⟩ a0 (by rw [a1]) a2,
    k_block V c t 0 k d ⟨win2_6.index t (0 : Fin 3), g0⟩ b0 b1 b2]

/-- An index of the weights' array is in a point's block iff each coordinate is in the block's range on its axis. -/
theorem mem_blk_weights (t : Fin cfg2.N) (i : S8x2048x2048.Idx) :
    i ∈ ((cfg2.win 6).blk t).view.set ↔ ∀ a : Fin 3, win2_6.index t a * S1x256x2048.size a ≤ (i a).val ∧ (i a).val < win2_6.index t a * S1x256x2048.size a + S1x256x2048.size a := by
  show i ∈ ((View.whole main_v8_1).slice (win2_6.rect t)).set ↔ _
  rw [View.set_slice_whole, Rect.mem_set_unit]
  exact Iff.rfl

/-- An index of the output's array is in a point's block iff each coordinate is in the block's range on its axis. -/
theorem mem_blk_output (t : Fin cfg2.N) (i : S8x2048x1024.Idx) :
    i ∈ ((cfg2.win 5).blk t).view.set ↔ ∀ a : Fin 3, win2_5.index t a * S1x256x1024.size a ≤ (i a).val ∧ (i a).val < win2_5.index t a * S1x256x1024.size a + S1x256x1024.size a := by
  show i ∈ ((View.whole main_v8_0).slice (win2_5.rect t)).set ↔ _
  rw [View.set_slice_whole, Rect.mem_set_unit]
  exact Iff.rfl

/-- Row s of batch n of the weights is written by the point of batch n and query block s / 256. -/
theorem cover_weights (i : S8x2048x2048.Idx) :
    ∃ t : Fin cfg2.N, (cfg2.win 6).flush t = true ∧ i ∈ ((cfg2.win 6).blk t).view.set := by
  have h0 : (i 0).val < 8 := (i 0).isLt
  have h1 : (i 1).val < 2048 := (i 1).isLt
  have h2 : (i 2).val < 2048 := (i 2).isLt
  obtain ⟨t, ht⟩ := idx_onto ⟨(i 0).val, h0⟩ ⟨(i 1).val / 256, by omega⟩
  have q0 : win2_6.index t (0 : Fin 3) = (i 0).val := congrFun ht 0
  have q1 : win2_6.index t (1 : Fin 3) = (i 1).val / 256 := congrFun ht 1
  have q2 : win2_6.index t (2 : Fin 3) = 0 := congrFun ht 2
  refine ⟨t, flush2_6 t, ?_⟩
  rw [mem_blk_weights]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 256 ≤ (i 1).val ∧ (i 1).val < win2_6.index t (1 : Fin 3) * 256 + 256; omega
  | ⟨2, _⟩ => show win2_6.index t (2 : Fin 3) * 2048 ≤ (i 2).val ∧ (i 2).val < win2_6.index t (2 : Fin 3) * 2048 + 2048; omega

/-- Row s of batch n of the output is written by the point of batch n and query block s / 256. -/
theorem cover_output (i : S8x2048x1024.Idx) :
    ∃ t : Fin cfg2.N, (cfg2.win 5).flush t = true ∧ i ∈ ((cfg2.win 5).blk t).view.set := by
  have h0 : (i 0).val < 8 := (i 0).isLt
  have h1 : (i 1).val < 2048 := (i 1).isLt
  have h2 : (i 2).val < 1024 := (i 2).isLt
  obtain ⟨t, ht⟩ := idx_onto ⟨(i 0).val, h0⟩ ⟨(i 1).val / 256, by omega⟩
  obtain ⟨a0, a1, a2, b0, b1, b2, c0, c1, c2, d0, d1, d2, e0, e1, e2, f0, f1, f2, g0, g1, g2⟩ := idx_facts t
  have q0 : win2_6.index t (0 : Fin 3) = (i 0).val := congrFun ht 0
  have q1 : win2_6.index t (1 : Fin 3) = (i 1).val / 256 := congrFun ht 1
  refine ⟨t, flush2_5 t, ?_⟩
  rw [mem_blk_output]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 256 ≤ (i 1).val ∧ (i 1).val < win2_5.index t (1 : Fin 3) * 256 + 256; omega
  | ⟨2, _⟩ => show win2_5.index t (2 : Fin 3) * 1024 ≤ (i 2).val ∧ (i 2).val < win2_5.index t (2 : Fin 3) * 1024 + 1024; omega

/-- The attention weights' array after the region. -/
theorem arr_weights (c : Dev nD) :
    (dat2 (F := Ideal) V c).arrAt 6 cfg2.N
      = weights (scores (V c main_v6_0) (V c main_v6_1)) (V c main_v7_0) (V c main_v7_1) :=
  (dat2 (F := Ideal) V c).arrAt_eq_of_cover 6 (weights (scores (V c main_v6_0) (V c main_v6_1)) (V c main_v7_0) (V c main_v7_1))
    (fun t _ => flushed_weights V c t) cover_weights

/-- The attention output's array after the region. -/
theorem arr_output (c : Dev nD) :
    (dat2 (F := Ideal) V c).arrAt 5 cfg2.N
      = combine (weights (scores (V c main_v6_0) (V c main_v6_1)) (V c main_v7_0) (V c main_v7_1)) (V c main_v6_2) :=
  (dat2 (F := Ideal) V c).arrAt_eq_of_cover 5
    (combine (weights (scores (V c main_v6_0) (V c main_v6_1)) (V c main_v7_0) (V c main_v7_1)) (V c main_v6_2))
    (fun t _ => flushed_output V c t) cover_output

end Cert.QueryAxisAttention.Final

end
-- ==== Proof.Chain.lean ====
/-
  The kernel's two results as functions of the seven arguments: the contents at the last segment boundary, walked back
  through the three regions and the host operations before them.

  At the last boundary the output and the weights are what the final region leaves in its two result arrays. That
  region is entered with the projections and the per-key statistics as the earlier regions left them (no later
  region or host operation writes them), the statistics region with the projections as the first region left them, and
  the first region with the argument arrays as launched and with the three weight matrices transposed by the host
  (the change of float format that follows each transpose is the identity on the extended reals).
-/
import proofs.«111910_j20710332301555_1_alg».proof.Proof.Gen.KernelIdeal.Frame
import proofs.«111910_j20710332301555_1_alg».proof.Proof.Spec
import proofs.«111910_j20710332301555_1_alg».proof.Proof.Region0
import proofs.«111910_j20710332301555_1_alg».proof.Proof.Region1
import proofs.«111910_j20710332301555_1_alg».proof.Proof.Region2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.QueryAxisAttention.Chain

open Cert.KernelIdeal Cert.KernelIdeal.Gen Cert.QueryAxisAttention

variable (m : (ℓ : Loc nD τ sig) → Buf (Elt Ideal) ℓ) (ρ : Dev nD → PrngReg)

/-! ## The arrays the first region is entered with -/

/-- The input as launched: no host operation writes it. -/
theorem entry_x (c : Dev nD) :
    V1 (F := Ideal) m ρ c main_arg0 = m ((c : Thread nD τ).loc main_arg0) := by
  show StableHlo.after hostOps0 (W0 m ρ c) (Proc.devRef .tc main_arg0) = _
  after_results

/-- The query bias as launched. -/
theorem entry_bq (c : Dev nD) :
    V1 (F := Ideal) m ρ c main_arg2 = m ((c : Thread nD τ).loc main_arg2) := by
  show StableHlo.after hostOps0 (W0 m ρ c) (Proc.devRef .tc main_arg2) = _
  after_results

/-- The key bias as launched. -/
theorem entry_bk (c : Dev nD) :
    V1 (F := Ideal) m ρ c main_arg4 = m ((c : Thread nD τ).loc main_arg4) := by
  show StableHlo.after hostOps0 (W0 m ρ c) (Proc.devRef .tc main_arg4) = _
  after_results

/-- The value bias as launched. -/
theorem entry_bv (c : Dev nD) :
    V1 (F := Ideal) m ρ c main_arg6 = m ((c : Thread nD τ).loc main_arg6) := by
  show StableHlo.after hostOps0 (W0 m ρ c) (Proc.devRef .tc main_arg6) = _
  after_results

/-- The query weight as the host left it: transposed, then changed in float format (the identity here). -/
theorem entry_wq (c : Dev nD) :
    (V1 (F := Ideal) m ρ c main_v1 : Sdd.Idx → EReal) = transposed (m ((c : Thread nD τ).loc main_arg1)) := by
  show StableHlo.after hostOps0 (W0 m ρ c) (Proc.devRef .tc main_v1) = _
  after_results
  funext i
  rw [eq_ix2 i]
  exact transpose_ix2_apply _ _ _ _

/-- The key weight as the host left it. -/
theorem entry_wk (c : Dev nD) :
    (V1 (F := Ideal) m ρ c main_v3 : Sdd.Idx → EReal) = transposed (m ((c : Thread nD τ).loc main_arg3)) := by
  show StableHlo.after hostOps0 (W0 m ρ c) (Proc.devRef .tc main_v3) = _
  after_results
  funext i
  rw [eq_ix2 i]
  exact transpose_ix2_apply _ _ _ _

/-- The value weight as the host left it. -/
theorem entry_wv (c : Dev nD) :
    (V1 (F := Ideal) m ρ c main_v5 : Sdd.Idx → EReal) = transposed (m ((c : Thread nD τ).loc main_arg5)) := by
  show StableHlo.after hostOps0 (W0 m ρ c) (Proc.devRef .tc main_v5) = _
  after_results
  funext i
  rw [eq_ix2 i]
  exact transpose_ix2_apply _ _ _ _

/-! ## After the projection region -/

/-- The projected queries. -/
theorem q_at2 (c : Dev nD) :
    W2 (F := Ideal) m ρ c (Proc.devRef .tc main_v6_0)
      = linT (m ((c : Thread nD τ).loc main_arg0)) (transposed (m ((c : Thread nD τ).loc main_arg1))) (m ((c : Thread nD τ).loc main_arg2)) := by
  refine (W2_arr m ρ c 7).trans ((Projection.arr_q (V1 m ρ) c).trans ?_)
  rw [entry_x, entry_wq, entry_bq]

/-- The projected keys. -/
theorem k_at2 (c : Dev nD) :
    W2 (F := Ideal) m ρ c (Proc.devRef .tc main_v6_1)
      = linT (m ((c : Thread nD τ).loc main_arg0)) (transposed (m ((c : Thread nD τ).loc main_arg3))) (m ((c : Thread nD τ).loc main_arg4)) := by
  refine (W2_arr m ρ c 8).trans ((Projection.arr_k (V1 m ρ) c).trans ?_)
  rw [entry_x, entry_wk, entry_bk]

/-- The projected values. -/
theorem v_at2 (c : Dev nD) :
    W2 (F := Ideal) m ρ c (Proc.devRef .tc main_v6_2)
      = linT (m ((c : Thread nD τ).loc main_arg0)) (transposed (m ((c : Thread nD τ).loc main_arg5))) (m ((c : Thread nD τ).loc main_arg6)) := by
  refine (W2_arr m ρ c 9).trans ((Projection.arr_v (V1 m ρ) c).trans ?_)
  rw [entry_x, entry_wv, entry_bv]

/-! ## After the statistics region: the projections are its inputs and stay, the two statistics are its results -/

theorem q_at3 (c : Dev nD) :
    W3 (F := Ideal) m ρ c (Proc.devRef .tc main_v6_0) = W2 (F := Ideal) m ρ c (Proc.devRef .tc main_v6_0) :=
  (W3_arr m ρ c 0).trans (((dat1 (V2 m ρ) c).arrAt_in 0 rfl _).trans (A_eq1 (V2 m ρ) c 0))

theorem k_at3 (c : Dev nD) :
    W3 (F := Ideal) m ρ c (Proc.devRef .tc main_v6_1) = W2 (F := Ideal) m ρ c (Proc.devRef .tc main_v6_1) :=
  (W3_arr m ρ c 1).trans (((dat1 (V2 m ρ) c).arrAt_in 1 rfl _).trans (A_eq1 (V2 m ρ) c 1))

theorem v_at3 (c : Dev nD) :
    W3 (F := Ideal) m ρ c (Proc.devRef .tc main_v6_2) = W2 (F := Ideal) m ρ c (Proc.devRef .tc main_v6_2) :=
  W3_of_ne m ρ c main_v6_2 (by decide)

/-- The column maxima of the scores of the projections. -/
theorem max_at3 (c : Dev nD) :
    W3 (F := Ideal) m ρ c (Proc.devRef .tc main_v7_0)
      = colMax (scores (W2 (F := Ideal) m ρ c (Proc.devRef .tc main_v6_0)) (W2 (F := Ideal) m ρ c (Proc.devRef .tc main_v6_1))) :=
  (W3_arr m ρ c 2).trans (Statistics.arr_max (V2 m ρ) c)

/-- The column sums taken with those maxima. -/
theorem sum_at3 (c : Dev nD) :
    W3 (F := Ideal) m ρ c (Proc.devRef .tc main_v7_1)
      = colSum (scores (W2 (F := Ideal) m ρ c (Proc.devRef .tc main_v6_0)) (W2 (F := Ideal) m ρ c (Proc.devRef .tc main_v6_1)))
          (colMax (scores (W2 (F := Ideal) m ρ c (Proc.devRef .tc main_v6_0)) (W2 (F := Ideal) m ρ c (Proc.devRef .tc main_v6_1)))) :=
  (W3_arr m ρ c 3).trans (Statistics.arr_sum (V2 m ρ) c)

/-! ## After the final region -/

/-- The weights result at the last boundary is the specification's weights of the arguments as launched. -/
theorem weights_eq (c : Dev nD) :
    W4 (F := Ideal) m ρ c (Proc.devRef .tc main_v8_1)
      = resultWeights (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 6).trans ((Final.arr_weights (V3 m ρ) c).trans ?_)
  show weights (scores (W3 (F := Ideal) m ρ c (Proc.devRef .tc main_v6_0)) (W3 (F := Ideal) m ρ c (Proc.devRef .tc main_v6_1)))
      (W3 (F := Ideal) m ρ c (Proc.devRef .tc main_v7_0)) (W3 (F := Ideal) m ρ c (Proc.devRef .tc main_v7_1)) = _
  rw [max_at3, sum_at3, q_at3, k_at3, q_at2, k_at2]
  rfl

/-- The output result at the last boundary is the specification's output of the arguments as launched. -/
theorem output_eq (c : Dev nD) :
    W4 (F := Ideal) m ρ c (Proc.devRef .tc main_v8_0)
      = resultOutput (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ((Final.arr_output (V3 m ρ) c).trans ?_)
  show combine (weights (scores (W3 (F := Ideal) m ρ c (Proc.devRef .tc main_v6_0)) (W3 (F := Ideal) m ρ c (Proc.devRef .tc main_v6_1)))
      (W3 (F := Ideal) m ρ c (Proc.devRef .tc main_v7_0)) (W3 (F := Ideal) m ρ c (Proc.devRef .tc main_v7_1)))
      (W3 (F := Ideal) m ρ c (Proc.devRef .tc main_v6_2)) = _
  rw [max_at3, sum_at3, q_at3, k_at3, v_at3, q_at2, k_at2, v_at2]
  rfl

end Cert.QueryAxisAttention.Chain

end
-- ==== Proof.RefValue.lean ====
/-
  The reference's two results are the specification's functions of the arguments.

  The reference computes the three projections by contracting x with each weight matrix over the matrix's SECOND axis
  (so the matrix is read transposed) and adding the bias; the scores by contracting the query and key projections over
  the feature axis and dividing by √1024 = 32, which on every extended real is the product with 1/32; the per-key maximum
  by a maximum-reduction from -∞ over the query axis followed by a maximum with -∞, which changes nothing; the
  exponentials, their sum over the query axis from 0, the quotient, and the contraction of the weights with the value
  projection over the key axis.
-/
import proofs.«111910_j20710332301555_1_alg».proof.Proof.Gen.ReferenceIdeal.Run
import proofs.«111910_j20710332301555_1_alg».proof.Proof.Gen.ReferenceIdeal.Read
import proofs.«111910_j20710332301555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.QueryAxisAttention.Reference

open Cert.ReferenceIdeal Cert.ReferenceIdeal.Gen Cert.QueryAxisAttention Cert.ReferenceIdeal.Read

/-! ## The two float words that are evaluated -/

/-- The word 0x44800000 denotes 1024: exponent field 137, so 2^(137-127) = 2^10, with a zero fraction. -/
theorem ofBits_1024 : Ideal.ofBits .f32 0x44800000#32 = ((1024 : ℝ) : EReal) := by
  simp [Ideal.ofBits, Ideal.ieee, -EReal.coe_mul]; norm_num

/-- The word 0x3D000000 denotes 1/32: exponent field 122, so 2^(122-127) = 2^(-5), with a zero fraction. -/
theorem ofBits_scale : Ideal.ofBits .f32 scaleWord = ((1 / 32 : ℝ) : EReal) := by
  show Ideal.ofBits .f32 0x3D000000#32 = ((1 / 32 : ℝ) : EReal)
  simp [Ideal.ofBits, Ideal.ieee, -EReal.coe_mul]; norm_num

/-- The ideal square root of 1024 is 32, since 1024 = 32². -/
theorem sqrt_1024 : Ideal.sqrt (((1024 : ℝ) : EReal)) = ((32 : ℝ) : EReal) := by
  rw [Ideal.sqrt_coe, if_neg (by norm_num)]
  have h : (1024 : ℝ) = 32 ^ 2 := by norm_num
  rw [h, Real.sqrt_sq (by norm_num)]

/-- Dividing by the square root of the word of 1024 is, on every extended real, multiplying by the word of 1/32. -/
theorem div_sqrt_word (x : EReal) :
    Ideal.div x (Ideal.sqrt (Ideal.ofBits .f32 0x44800000#32)) = x * Ideal.ofBits .f32 scaleWord := by
  rw [ofBits_1024, sqrt_1024, Ideal.div_coe (by norm_num), ofBits_scale]

/-! ## The projections -/

/-- Contracting x with a weight matrix over the matrix's second axis and adding the bias along the feature axis is the
    linear projection with the transposed matrix. -/
theorem proj_q (x0 : Sbsd.Idx → EReal) (x1 : Sdd.Idx → EReal) (x2 : Sd.Idx → EReal) :
    val_main_v3 (F := Ideal) x0 x1 x2 = linT x0 (transposed x1) x2 := by
  funext i
  obtain ⟨n, s, e, rfl⟩ : ∃ (n : Fin 8) (s : Fin 2048) (e : Fin 1024), i = ix3 n s e := ⟨i 0, i 1, i 2, eq_ix3 i⟩
  rw [val_main_v3_apply, val_main_v0_apply, val_main_v2_apply, val_main_v1_apply, linT_ix3, Ideal.addf_def]
  refine congrArg₂ (· + ·) (Finset.sum_congr rfl fun k _ => ?_) ?_
  · refine congrArg₂ (· * ·) (congrArg x0 ?_) ?_
    · exact funext fun a => Fin.ext (by match a with | ⟨0, _⟩ => rfl | ⟨1, _⟩ => rfl | ⟨2, _⟩ => rfl)
    · rw [transposed_ix2]
      exact congrArg x1 (funext fun a => Fin.ext (by match a with | ⟨0, _⟩ => rfl | ⟨1, _⟩ => rfl))
  · exact congrArg x2 (funext fun a => Fin.ext (by match a with | ⟨0, _⟩ => rfl))

theorem proj_k (x0 : Sbsd.Idx → EReal) (x3 : Sdd.Idx → EReal) (x4 : Sd.Idx → EReal) :
    val_main_v7 (F := Ideal) x0 x3 x4 = linT x0 (transposed x3) x4 := by
  funext i
  obtain ⟨n, s, e, rfl⟩ : ∃ (n : Fin 8) (s : Fin 2048) (e : Fin 1024), i = ix3 n s e := ⟨i 0, i 1, i 2, eq_ix3 i⟩
  rw [val_main_v7_apply, val_main_v4_apply, val_main_v6_apply, val_main_v5_apply, linT_ix3, Ideal.addf_def]
  refine congrArg₂ (· + ·) (Finset.sum_congr rfl fun k _ => ?_) ?_
  · refine congrArg₂ (· * ·) (congrArg x0 ?_) ?_
    · exact funext fun a => Fin.ext (by match a with | ⟨0, _⟩ => rfl | ⟨1, _⟩ => rfl | ⟨2, _⟩ => rfl)
    · rw [transposed_ix2]
      exact congrArg x3 (funext fun a => Fin.ext (by match a with | ⟨0, _⟩ => rfl | ⟨1, _⟩ => rfl))
  · exact congrArg x4 (funext fun a => Fin.ext (by match a with | ⟨0, _⟩ => rfl))

theorem proj_v (x0 : Sbsd.Idx → EReal) (x5 : Sdd.Idx → EReal) (x6 : Sd.Idx → EReal) :
    val_main_v11 (F := Ideal) x0 x5 x6 = linT x0 (transposed x5) x6 := by
  funext i
  obtain ⟨n, s, e, rfl⟩ : ∃ (n : Fin 8) (s : Fin 2048) (e : Fin 1024), i = ix3 n s e := ⟨i 0, i 1, i 2, eq_ix3 i⟩
  rw [val_main_v11_apply, val_main_v8_apply, val_main_v10_apply, val_main_v9_apply, linT_ix3, Ideal.addf_def]
  refine congrArg₂ (· + ·) (Finset.sum_congr rfl fun k _ => ?_) ?_
  · refine congrArg₂ (· * ·) (congrArg x0 ?_) ?_
    · exact funext fun a => Fin.ext (by match a with | ⟨0, _⟩ => rfl | ⟨1, _⟩ => rfl | ⟨2, _⟩ => rfl)
    · rw [transposed_ix2]
      exact congrArg x5 (funext fun a => Fin.ext (by match a with | ⟨0, _⟩ => rfl | ⟨1, _⟩ => rfl))
  · exact congrArg x6 (funext fun a => Fin.ext (by match a with | ⟨0, _⟩ => rfl))

/-! ## The scores -/

/-- Contracting the query and key projections over the feature axis and dividing by √1024 gives the scaled scores. -/
theorem scores_stage (x0 : Sbsd.Idx → EReal) (x1 : Sdd.Idx → EReal) (x2 : Sd.Idx → EReal) (x3 : Sdd.Idx → EReal) (x4 : Sd.Idx → EReal) :
    val_main_v15 (F := Ideal) x0 x1 x2 x3 x4
      = scores (val_main_v3 (F := Ideal) x0 x1 x2) (val_main_v7 (F := Ideal) x0 x3 x4) := by
  funext i
  obtain ⟨n, s, t, rfl⟩ : ∃ (n : Fin 8) (s t : Fin 2048), i = ix3 n s t := ⟨i 0, i 1, i 2, eq_ix3 i⟩
  rw [val_main_v15_apply, val_main_v12_apply, val_main_v14_apply, val_main_v13_apply, val_main_cst_apply, scores_ix3]
  generalize val_main_v3 (F := Ideal) x0 x1 x2 = q
  generalize val_main_v7 (F := Ideal) x0 x3 x4 = k
  rw [Ideal.hostDivf_def, Ideal.hostUnary_sqrt_def, Ideal.ofBits_def, div_sqrt_word]
  refine congrArg (· * Ideal.ofBits .f32 scaleWord) (Finset.sum_congr rfl fun d _ => ?_)
  refine congrArg₂ (· * ·) (congrArg q ?_) (congrArg k ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-! ## The per-key maximum -/

/-- A key's reduced index with query s put back on the reduced axis is (n, s, t). -/
theorem lift_query (h : S8x2048x2048.Reduces [1] S8x2048) (n : Fin 8) (t : Fin 2048) (k : Fin (S8x2048x2048.size 1)) :
    h.lift (ix2 n t) k = ix3 n (⟨k.val, k.isLt⟩ : Fin 2048) t := by
  funext c; apply Fin.ext
  match c with
  | ⟨0, _⟩ => rfl
  | ⟨1, _⟩ => rfl
  | ⟨2, _⟩ => rfl

/-- The maximum-reduction over the query axis, read at key (n, t): the fold of the maximum over that key's column of
    queries, from the initial value's one element. -/
theorem reduce_max_query (sc : S8x2048x2048.Idx → Ideal .f32) (init : S_.Idx → Ideal .f32) (n : Fin 8) (t : Fin 2048) :
    Host.reduce FloatOps.maximumf sc init reducesTo_S8x2048x2048_S8x2048_d1 h_S_ (ix2 n t)
      = (Finset.univ : Finset (Fin 2048)).fold max (init (Shape.Idx.first h_S_)) fun s => sc (ix3 n s t) := by
  have hr : S8x2048x2048.Reduces [1] S8x2048 := by decide
  rw [Host.reduce_eq_fold_single FloatOps.maximumf sc init reducesTo_S8x2048x2048_S8x2048_d1 hr h_S_]
  have hf : (sc ∘ hr.lift (ix2 n t)) = fun s : Fin 2048 => sc (ix3 n s t) :=
    funext fun k => congrArg sc (lift_query hr n t k)
  rw [hf]
  rfl

/-- The maximum-reduction over the query axis from -∞, then the maximum with -∞ once more, then the unit query axis put
    back: the column maximum. The starting value lies below the fold that starts from it, so the outer maximum with it
    changes nothing, whatever the word denotes. -/
theorem colMax_stage (x0 : Sbsd.Idx → EReal) (x1 : Sdd.Idx → EReal) (x2 : Sd.Idx → EReal) (x3 : Sdd.Idx → EReal) (x4 : Sd.Idx → EReal) :
    val_main_v19 (F := Ideal) x0 x1 x2 x3 x4 = colMax (val_main_v15 (F := Ideal) x0 x1 x2 x3 x4) := by
  funext j
  obtain ⟨n, u, t, rfl⟩ : ∃ (n : Fin 8) (u : Fin 1) (t : Fin 2048), j = ix3 n u t := ⟨j 0, j 1, j 2, eq_ix3 j⟩
  rw [val_main_v19_apply, val_main_v18_apply, val_main_v17_apply, val_main_cst_1_apply, colMax_ix3]
  unfold val_main_v16
  generalize val_main_v15 (F := Ideal) x0 x1 x2 x3 x4 = sc
  have hidx : idx_main_v19 (ix3 n u t) = ix2 n t :=
    funext fun a => Fin.ext (by match a with | ⟨0, _⟩ => rfl | ⟨1, _⟩ => rfl)
  rw [hidx, Ideal.maximumf_def, Ideal.ofBits_def]
  refine (congrArg (max (Ideal.ofBits .f32 negInfWord)) (reduce_max_query sc (val_main_cst_0 (F := Ideal)) n t)).trans ?_
  rw [val_main_cst_0_apply, Ideal.ofBits_def]
  exact max_eq_right ((Finset.le_fold_max _).2 (Or.inl le_rfl))

/-! ## The exponentials, their column sums and the weights -/

/-- The exponential of the score less the column maximum broadcast back over the query axis. -/
theorem exp_stage (x0 : Sbsd.Idx → EReal) (x1 : Sdd.Idx → EReal) (x2 : Sd.Idx → EReal) (x3 : Sdd.Idx → EReal) (x4 : Sd.Idx → EReal)
    (n : Fin 8) (s t : Fin 2048) :
    val_main_v22 (F := Ideal) x0 x1 x2 x3 x4 (ix3 n s t)
      = Ideal.exp (val_main_v15 (F := Ideal) x0 x1 x2 x3 x4 (ix3 n s t) - val_main_v19 (F := Ideal) x0 x1 x2 x3 x4 (ix3 n (0 : Fin 1) t)) := by
  have hidx : idx_main_v20 (ix3 n s t) = ix3 n (0 : Fin 1) t :=
    funext fun a => Fin.ext (by match a with | ⟨0, _⟩ => rfl | ⟨1, _⟩ => rfl | ⟨2, _⟩ => rfl)
  rw [val_main_v22_apply, val_main_v21_apply, val_main_v20_apply, hidx, Ideal.hostUnary_exp_def, Ideal.subf_def]

/-- The sum of the exponentials over the query axis from the zero word, the unit query axis put back: the column sum. -/
theorem colSum_stage (x0 : Sbsd.Idx → EReal) (x1 : Sdd.Idx → EReal) (x2 : Sd.Idx → EReal) (x3 : Sdd.Idx → EReal) (x4 : Sd.Idx → EReal) :
    val_main_v24 (F := Ideal) x0 x1 x2 x3 x4
      = colSum (val_main_v15 (F := Ideal) x0 x1 x2 x3 x4) (val_main_v19 (F := Ideal) x0 x1 x2 x3 x4) := by
  funext j
  obtain ⟨n, u, t, rfl⟩ : ∃ (n : Fin 8) (u : Fin 1) (t : Fin 2048), j = ix3 n u t := ⟨j 0, j 1, j 2, eq_ix3 j⟩
  rw [val_main_v24_apply, val_main_v23_apply, val_main_cst_2_apply, colSum_ix3, Ideal.ofBits_def, Ideal.ofBits_zero_f32, zero_add]
  refine Finset.sum_congr rfl fun s _ => ?_
  rw [← exp_stage x0 x1 x2 x3 x4 n s t]
  exact congrArg (val_main_v22 (F := Ideal) x0 x1 x2 x3 x4)
    (funext fun a => Fin.ext (by match a with | ⟨0, _⟩ => rfl | ⟨1, _⟩ => rfl | ⟨2, _⟩ => rfl))

/-- Each exponential divided by its column's sum broadcast back over the query axis: the weights. -/
theorem weights_stage (x0 : Sbsd.Idx → EReal) (x1 : Sdd.Idx → EReal) (x2 : Sd.Idx → EReal) (x3 : Sdd.Idx → EReal) (x4 : Sd.Idx → EReal) :
    val_main_v26 (F := Ideal) x0 x1 x2 x3 x4
      = weights (val_main_v15 (F := Ideal) x0 x1 x2 x3 x4) (val_main_v19 (F := Ideal) x0 x1 x2 x3 x4)
          (val_main_v24 (F := Ideal) x0 x1 x2 x3 x4) := by
  funext i
  obtain ⟨n, s, t, rfl⟩ : ∃ (n : Fin 8) (s t : Fin 2048), i = ix3 n s t := ⟨i 0, i 1, i 2, eq_ix3 i⟩
  rw [val_main_v26_apply, val_main_v25_apply, weights_ix3, Ideal.hostDivf_def, exp_stage]
  refine congrArg (Ideal.div _) (congrArg (val_main_v24 (F := Ideal) x0 x1 x2 x3 x4) ?_)
  exact funext fun a => Fin.ext (by match a with | ⟨0, _⟩ => rfl | ⟨1, _⟩ => rfl | ⟨2, _⟩ => rfl)

/-- The weights stage as the specification's function of the five arguments it reads. -/
theorem weights_chain (x0 : Sbsd.Idx → EReal) (x1 : Sdd.Idx → EReal) (x2 : Sd.Idx → EReal) (x3 : Sdd.Idx → EReal) (x4 : Sd.Idx → EReal) :
    val_main_v26 (F := Ideal) x0 x1 x2 x3 x4 = resultWeights x0 x1 x2 x3 x4 := by
  rw [weights_stage, colSum_stage, colMax_stage, scores_stage, proj_q, proj_k]
  rfl

/-! ## The output -/

/-- Contracting the weights with the value projection over the key axis: the combination of the value rows. -/
theorem output_stage (x0 : Sbsd.Idx → EReal) (x1 : Sdd.Idx → EReal) (x2 : Sd.Idx → EReal) (x3 : Sdd.Idx → EReal) (x4 : Sd.Idx → EReal)
    (x5 : Sdd.Idx → EReal) (x6 : Sd.Idx → EReal) :
    val_main_v27 (F := Ideal) x0 x1 x2 x3 x4 x5 x6
      = combine (val_main_v26 (F := Ideal) x0 x1 x2 x3 x4) (val_main_v11 (F := Ideal) x0 x5 x6) := by
  funext i
  obtain ⟨n, s, e, rfl⟩ : ∃ (n : Fin 8) (s : Fin 2048) (e : Fin 1024), i = ix3 n s e := ⟨i 0, i 1, i 2, eq_ix3 i⟩
  rw [val_main_v27_apply, combine_ix3]
  generalize val_main_v26 (F := Ideal) x0 x1 x2 x3 x4 = w
  generalize val_main_v11 (F := Ideal) x0 x5 x6 = v
  refine Finset.sum_congr rfl fun t _ => ?_
  refine congrArg₂ (· * ·) (congrArg w ?_) (congrArg v ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

theorem output_chain (x0 : Sbsd.Idx → EReal) (x1 : Sdd.Idx → EReal) (x2 : Sd.Idx → EReal) (x3 : Sdd.Idx → EReal) (x4 : Sd.Idx → EReal)
    (x5 : Sdd.Idx → EReal) (x6 : Sd.Idx → EReal) :
    val_main_v27 (F := Ideal) x0 x1 x2 x3 x4 x5 x6 = resultOutput x0 x1 x2 x3 x4 x5 x6 := by
  rw [output_stage, weights_chain, proj_v]
  rfl

/-! ## The two results -/

variable (m : (ℓ : Loc nD τ sig) → Buf (Elt Ideal) ℓ)

/-- The reference's weights result is the specification's weights of its arguments. -/
theorem weights_eq (c : Dev nD) :
    Cert.ReferenceIdeal.Value.res_out1 (F := Ideal) m c
      = resultWeights (m ((c : Thread nD τ).loc main_arg0)) (m ((c : Thread nD τ).loc main_arg1)) (m ((c : Thread nD τ).loc main_arg2)) (m ((c : Thread nD τ).loc main_arg3)) (m ((c : Thread nD τ).loc main_arg4)) :=
  (val_main_v26_eq (F := Ideal) m c).trans (weights_chain _ _ _ _ _)

/-- The reference's output result is the specification's output of its arguments. -/
theorem output_eq (c : Dev nD) :
    Cert.ReferenceIdeal.Value.res_out0 (F := Ideal) m c
      = resultOutput (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (val_main_v27_eq (F := Ideal) m c).trans (output_chain _ _ _ _ _ _ _)

end Cert.QueryAxisAttention.Reference

end
-- ==== Proof.lean ====
/-
  Attention normalised over the query axis, computed by three tiled kernels, against the same attention written with
  whole-array operations.

  The kernel program projects x to queries, keys and values in a first region (one 256-row tile of one batch per grid
  point), takes in a second region, for each block of 256 keys, the maximum and the sum of exponentials of the scaled
  scores of ALL 2048 queries against those keys, and in a third region recomputes the scaled scores of a tile of 256
  queries against all keys, forms exp(score - maximum) / sum and combines the value rows with these weights. The
  reference computes the same quantities on whole arrays.

  On the extended reals both are one function of the seven arguments (`resultOutput`, `resultWeights`):
  a change of float format is the identity, a tile's inner products are the whole array's inner products at the tile's
  rows, the kernel's factor 1/32 is the reference's division by √1024, and the reference's extra maximum with -∞ leaves
  a maximum folded from -∞ unchanged. Neither side re-associates a sum, so no finiteness of the inputs is used.

  The three frames: the two kernel programs' are the generated frame certificates; the reference's is its generated
  run with the results dropped. The idealization rewrote nothing, so what it preserves is trivially true.
-/
import proofs.«111910_j20710332301555_1_alg».proof.Defs
import proofs.«111910_j20710332301555_1_alg».proof.Proof.Gen.Kernel
import proofs.«111910_j20710332301555_1_alg».proof.Proof.Gen.Kernel.Frame
import proofs.«111910_j20710332301555_1_alg».proof.Proof.Gen.KernelIdeal
import proofs.«111910_j20710332301555_1_alg».proof.Proof.Gen.KernelIdeal.Frame
import proofs.«111910_j20710332301555_1_alg».proof.Proof.Gen.ReferenceIdeal
import proofs.«111910_j20710332301555_1_alg».proof.Proof.Gen.ReferenceIdeal.Run
import proofs.«111910_j20710332301555_1_alg».proof.Proof.Gen.Pre_finite_inputs
import proofs.«111910_j20710332301555_1_alg».proof.Proof.Spec
import proofs.«111910_j20710332301555_1_alg».proof.Proof.KernelRun
import proofs.«111910_j20710332301555_1_alg».proof.Proof.Chain
import proofs.«111910_j20710332301555_1_alg».proof.Proof.RefValue
import Idealize.ShloMosaic.Adequacy
import Idealize.ShloMosaic.Init

noncomputable section

namespace Cert.Proof

open Idealize.ShloMosaic Idealize.ShloMosaic.TcCoe Idealize.SL.Sem Cert.QueryAxisAttention

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the output at `resultOutput` and the weights at `resultWeights` of the kernel's arguments:
    the kernel by its run read at the last boundary and walked back to the arguments, the reference by its run's
    composed term read as the specification, at arguments that agree with the kernel's. -/
theorem algebraic : Cert.algebraic_KernelIdeal_ReferenceIdeal := by
  intro m ρ m' ρ' _ hagree
  refine ⟨fun c => resultOutput (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => resultWeights (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Chain.output_eq m ρ c), (h c).2.1.trans (Chain.weights_eq m ρ c), (h c).2.2⟩)
      (Cert.KernelIdeal.RunValues.run_values (F := Ideal) m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    · obtain ⟨h0, h1, h2, h3, h4, h5, h6⟩ := hagree c
      beta_reduce
      rw [← h0, ← h1, ← h2, ← h3, ← h4, ← h5, ← h6]
      exact Reference.output_eq m' c
    · obtain ⟨h0, h1, h2, h3, h4, h5, h6⟩ := hagree c
      beta_reduce
      rw [← h0, ← h1, ← h2, ← h3, ← h4]
      exact Reference.weights_eq m' c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
